-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200x20000 : Shape := ⟨3, ![64, 200, 20000]⟩
abbrev S64x200 : Shape := ⟨2, ![64, 200]⟩
abbrev S64 : Shape := ⟨1, ![64]⟩
abbrev S64x1 : Shape := ⟨2, ![64, 1]⟩
abbrev S64x200x1 : Shape := ⟨3, ![64, 200, 1]⟩
abbrev S_ : Shape := ⟨0, ![]⟩

class Facts : Prop where
  bcast_S_S64x200x20000 : S_.BroadcastsInDim S64x200x20000 (![] : Fin 0 → Fin S64x200x20000.rank)
  reducesTo_S64x200x20000_S_d0_1_2 : S64x200x20000.ReducesTo [0, 1, 2] S_
  h_S_ : 0 < S_.numel
  bcast_S_S64x200 : S_.BroadcastsInDim S64x200 (![] : Fin 0 → Fin S64x200.rank)
  reducesTo_S64x200_S_d0_1 : S64x200.ReducesTo [0, 1] S_
  bcast_S_S64x200x1 : S_.BroadcastsInDim S64x200x1 (![] : Fin 0 → Fin S64x200x1.rank)
  reducesTo_S64x200x1_S_d0_1_2 : S64x200x1.ReducesTo [0, 1, 2] S_

variable [Facts]

def fn_part1 {F : FTy → Type} [FloatOps F] (main_v10 : IVec S_ 1) (main_v15 : IVec S64x200x1 1) (main_c_5 : IVec S_ 1) : IVec S_ 1 :=
  let main_v16 : IVec S_ 1 := (fun x v => Host.reduce IntOp.andi x v reducesTo_S64x200x1_S_d0_1_2 h_S_) main_v15 main_c_5
  let main_v17 : IVec S_ 1 := andi main_v10 main_v16
  main_v17

def fn {F : FTy → Type} [FloatOps F] (main_arg0 : FVec F S64x200x20000 .f32) (main_arg1 : IVec S64x200 32) (main_arg2 : IVec S64 32) (main_arg3 : IVec S64x1 32) (main_arg4 : IVec S64x200x1 32) : IVec S_ 1 :=
  let main_v0 : FVec F S64x200x20000 .f32 := Host.absf main_arg0
  let main_cst : FVec F S_ .f32 := constant S_ .f32 0x7F800000#32
  let main_v1 : FVec F S64x200x20000 .f32 := broadcastInDim S64x200x20000 ![] bcast_S_S64x200x20000 main_cst
  let main_v2 : IVec S64x200x20000 1 := cmpf .olt main_v0 main_v1
  let main_c : IVec S_ 1 := constantI S_ 1 1#1
  let main_v3 : IVec S_ 1 := (fun x v => Host.reduce IntOp.andi x v reducesTo_S64x200x20000_S_d0_1_2 h_S_) main_v2 main_c
  let main_c_0 : IVec S_ 32 := constantI S_ 32 0#32
  let main_v4 : IVec S64x200 32 := broadcastInDim S64x200 ![] bcast_S_S64x200 main_c_0
  let main_v5 : IVec S64x200 1 := cmpi .sge main_arg1 main_v4
  let main_c_1 : IVec S_ 32 := constantI S_ 32 20000#32
  let main_v6 : IVec S64x200 32 := broadcastInDim S64x200 ![] bcast_S_S64x200 main_c_1
  let main_v7 : IVec S64x200 1 := cmpi .slt main_arg1 main_v6
  let main_v8 : IVec S64x200 1 := andi main_v5 main_v7
  let main_c_2 : IVec S_ 1 := constantI S_ 1 1#1
  let main_v9 : IVec S_ 1 := (fun x v => Host.reduce IntOp.andi x v reducesTo_S64x200_S_d0_1 h_S_) main_v8 main_c_2
  let main_v10 : IVec S_ 1 := andi main_v3 main_v9
  let main_c_3 : IVec S_ 32 := constantI S_ 32 0#32
  let main_v11 : IVec S64x200x1 32 := broadcastInDim S64x200x1 ![] bcast_S_S64x200x1 main_c_3
  let main_v12 : IVec S64x200x1 1 := cmpi .sge main_arg4 main_v11
  let main_c_4 : IVec S_ 32 := constantI S_ 32 20000#32
  let main_v13 : IVec S64x200x1 32 := broadcastInDim S64x200x1 ![] bcast_S_S64x200x1 main_c_4
  let main_v14 : IVec S64x200x1 1 := cmpi .slt main_arg4 main_v13
  let main_v15 : IVec S64x200x1 1 := andi main_v12 main_v14
  let main_c_5 : IVec S_ 1 := constantI S_ 1 1#1
  fn_part1 (F := F) main_v10 main_v15 main_c_5
-- ==== Kernel.lean ====
abbrev S64x200x20000 : Shape := ⟨3, ![64, 200, 20000]⟩
abbrev S64x200 : Shape := ⟨2, ![64, 200]⟩
abbrev S64 : Shape := ⟨1, ![64]⟩
abbrev S64x1 : Shape := ⟨2, ![64, 1]⟩
abbrev S64x200x1 : Shape := ⟨3, ![64, 200, 1]⟩
abbrev S64x400 : Shape := ⟨2, ![64, 400]⟩
abbrev S64x1x400 : Shape := ⟨3, ![64, 1, 400]⟩
abbrev S64x1x1 : Shape := ⟨3, ![64, 1, 1]⟩
abbrev S64x1x128 : Shape := ⟨3, ![64, 1, 128]⟩
abbrev S1x200x20000 : Shape := ⟨3, ![1, 200, 20000]⟩
abbrev S1x1x400 : Shape := ⟨3, ![1, 1, 400]⟩
abbrev S1x1x1 : Shape := ⟨3, ![1, 1, 1]⟩
abbrev S1x1x128 : Shape := ⟨3, ![1, 1, 128]⟩
abbrev S1x400 : Shape := ⟨2, ![1, 400]⟩
abbrev S200x400 : Shape := ⟨2, ![200, 400]⟩
abbrev S1x200x1000 : Shape := ⟨3, ![1, 200, 1000]⟩
abbrev S200x1000 : Shape := ⟨2, ![200, 1000]⟩
abbrev S1000x1 : Shape := ⟨2, ![1000, 1]⟩
abbrev S1000x400 : Shape := ⟨2, ![1000, 400]⟩
abbrev S200x200 : Shape := ⟨2, ![200, 200]⟩
abbrev S1x1 : Shape := ⟨2, ![1, 1]⟩
abbrev S200 : Shape := ⟨1, ![200]⟩
abbrev S200x1 : Shape := ⟨2, ![200, 1]⟩
abbrev S1 : Shape := ⟨1, ![1]⟩
abbrev S1x128 : Shape := ⟨2, ![1, 128]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S64x200x20000, .f32⟩
  | .hbm, ⟨1, _⟩ => ⟨S64x200, .i32⟩
  | .hbm, ⟨2, _⟩ => ⟨S64, .i32⟩
  | .hbm, ⟨3, _⟩ => ⟨S64x1, .i32⟩
  | .hbm, ⟨4, _⟩ => ⟨S64x200x1, .i32⟩
  | .hbm, ⟨5, _⟩ => ⟨S64x200, .i32⟩
  | .hbm, ⟨6, _⟩ => ⟨S64x400, .i32⟩
  | .hbm, ⟨7, _⟩ => ⟨S64x1x400, .i32⟩
  | .hbm, ⟨8, _⟩ => ⟨S64x1x1, .i32⟩
  | .hbm, ⟨9, _⟩ => ⟨S64x1x128, .f32⟩
  | .hbm, ⟨10, _⟩ => ⟨S64x1x1, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S1, .f32⟩
  | .local _ .vmem, ⟨0, _⟩ => ⟨S1x200x20000, .f32⟩
  | .local _ .vmem, ⟨1, _⟩ => ⟨S1x200x20000, .f32⟩
  | .local _ .vmem, ⟨2, _⟩ => ⟨S1x1x400, .i32⟩
  | .local _ .vmem, ⟨3, _⟩ => ⟨S1x1x400, .i32⟩
  | .local _ .vmem, ⟨4, _⟩ => ⟨S1x1x1, .i32⟩
  | .local _ .vmem, ⟨5, _⟩ => ⟨S1x1x1, .i32⟩
  | .local _ .vmem, ⟨6, _⟩ => ⟨S1x1x128, .f32⟩
  | .local _ .vmem, ⟨7, _⟩ => ⟨S1x1x128, .f32⟩
  | _, _ => ⟨S64x200x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x200x1_S64x200 : S64x200x1.ShapeCasts S64x200
  concatenates_S64x200_S64x200_S64x400_d1 : Shape.Concatenates [S64x200, S64x200] S64x400 1
  shapeCasts_S64x400_S64x1x400 : S64x400.ShapeCasts S64x1x400
  shapeCasts_S64_S64x1x1 : S64.ShapeCasts S64x1x1
  inb_S1x1x400_S1x1x400_0_0_0 : ∀ a, (![0, 0, 0] : Fin 3 → Nat) a + S1x1x400.size a ≤ S1x1x400.size a
  h_S1x1x400 : 0 < S1x1x400.numel
  shapeCasts_S1x1x400_S1x400 : S1x1x400.ShapeCasts S1x400
  inb_S1x200x20000_S1x200x1000_0_0_0 : ∀ a, (![0, 0, 0] : Fin 3 → Nat) a + S1x200x1000.size a ≤ S1x200x20000.size a
  h_S1x200x1000 : 0 < S1x200x1000.numel
  shapeCasts_S1x200x1000_S200x1000 : S1x200x1000.ShapeCasts S200x1000
  bitsLt_bf16_f32 : FTy.bits .bf16 < FTy.bits .f32
  iota_S1000x1_d0_w32 : S1000x1.Iotas .tc 32 [0]
  broadcasts_S1000x1_S1000x400 : S1000x1.Broadcasts S1000x400
  broadcasts_S1x400_S1000x400 : S1x400.Broadcasts S1000x400
  natLt_1_32 : 1 < 32
  inb_S1x200x20000_S1x200x1000_0_0_1000 : ∀ a, (![0, 0, 1000] : Fin 3 → Nat) a + S1x200x1000.size a ≤ S1x200x20000.size a
  inb_S1x200x20000_S1x200x1000_0_0_2000 : ∀ a, (![0, 0, 2000] : Fin 3 → Nat) a + S1x200x1000.size a ≤ S1x200x20000.size a
  inb_S1x200x20000_S1x200x1000_0_0_3000 : ∀ a, (![0, 0, 3000] : Fin 3 → Nat) a + S1x200x1000.size a ≤ S1x200x20000.size a
  inb_S1x200x20000_S1x200x1000_0_0_4000 : ∀ a, (![0, 0, 4000] : Fin 3 → Nat) a + S1x200x1000.size a ≤ S1x200x20000.size a
  inb_S1x200x20000_S1x200x1000_0_0_5000 : ∀ a, (![0, 0, 5000] : Fin 3 → Nat) a + S1x200x1000.size a ≤ S1x200x20000.size a
  inb_S1x200x20000_S1x200x1000_0_0_6000 : ∀ a, (![0, 0, 6000] : Fin 3 → Nat) a + S1x200x1000.size a ≤ S1x200x20000.size a
  inb_S1x200x20000_S1x200x1000_0_0_7000 : ∀ a, (![0, 0, 7000] : Fin 3 → Nat) a + S1x200x1000.size a ≤ S1x200x20000.size a
  inb_S1x200x20000_S1x200x1000_0_0_8000 : ∀ a, (![0, 0, 8000] : Fin 3 → Nat) a + S1x200x1000.size a ≤ S1x200x20000.size a
  inb_S1x200x20000_S1x200x1000_0_0_9000 : ∀ a, (![0, 0, 9000] : Fin 3 → Nat) a + S1x200x1000.size a ≤ S1x200x20000.size a
  inb_S1x200x20000_S1x200x1000_0_0_10000 : ∀ a, (![0, 0, 10000] : Fin 3 → Nat) a + S1x200x1000.size a ≤ S1x200x20000.size a
  inb_S1x200x20000_S1x200x1000_0_0_11000 : ∀ a, (![0, 0, 11000] : Fin 3 → Nat) a + S1x200x1000.size a ≤ S1x200x20000.size a
  inb_S1x200x20000_S1x200x1000_0_0_12000 : ∀ a, (![0, 0, 12000] : Fin 3 → Nat) a + S1x200x1000.size a ≤ S1x200x20000.size a
  inb_S1x200x20000_S1x200x1000_0_0_13000 : ∀ a, (![0, 0, 13000] : Fin 3 → Nat) a + S1x200x1000.size a ≤ S1x200x20000.size a
  inb_S1x200x20000_S1x200x1000_0_0_14000 : ∀ a, (![0, 0, 14000] : Fin 3 → Nat) a + S1x200x1000.size a ≤ S1x200x20000.size a
  inb_S1x200x20000_S1x200x1000_0_0_15000 : ∀ a, (![0, 0, 15000] : Fin 3 → Nat) a + S1x200x1000.size a ≤ S1x200x20000.size a
  inb_S1x200x20000_S1x200x1000_0_0_16000 : ∀ a, (![0, 0, 16000] : Fin 3 → Nat) a + S1x200x1000.size a ≤ S1x200x20000.size a
  inb_S1x200x20000_S1x200x1000_0_0_17000 : ∀ a, (![0, 0, 17000] : Fin 3 → Nat) a + S1x200x1000.size a ≤ S1x200x20000.size a
  inb_S1x200x20000_S1x200x1000_0_0_18000 : ∀ a, (![0, 0, 18000] : Fin 3 → Nat) a + S1x200x1000.size a ≤ S1x200x20000.size a
  inb_S1x200x20000_S1x200x1000_0_0_19000 : ∀ a, (![0, 0, 19000] : Fin 3 → Nat) a + S1x200x1000.size a ≤ S1x200x20000.size a
  slices_S200x400_o0_0_S200x200 : S200x400.Slices ![0, 0] S200x200
  slices_S200x400_o0_200_S200x200 : S200x400.Slices ![0, 200] S200x200
  iota_S200x200_d0_w32 : S200x200.Iotas .tc 32 [0]
  iota_S200x200_d1_w32 : S200x200.Iotas .tc 32 [1]
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S200x200 : S1x1.Broadcasts S200x200
  reduces_S200x200_S200 : S200x200.Reduces [1] S200
  shapeCasts_S200_S200x1 : S200.ShapeCasts S200x1
  reduces_S200x1_S1 : S200x1.Reduces [0] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  bcast_S_S1 : S_.BroadcastsInDim S1 (![] : Fin 0 → Fin S1.rank)
  dot_S200x1000_S1000x400_S200x400_1_0_0_1_n_n_wf : DotDims.WF S200x1000 S1000x400 S200x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x20000.size a ≤ S64x200x20000.size a
  hwx0_0 : ∀ i : grid0.Coords, EltTy.bits .f32 = 32 ∨ (Rect.block (s := S64x200x20000) S1x200x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x400.size a ≤ S64x1x400.size a
  hwx0_1 : ∀ i : grid0.Coords, EltTy.bits .i32 = 32 ∨ (Rect.block (s := S64x1x400) S1x1x400.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S64x1x1.size a
  hwx0_2 : ∀ i : grid0.Coords, EltTy.bits .i32 = 32 ∨ (Rect.block (s := S64x1x1) S1x1x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S64x1x128.size a
  hwx0_3 : ∀ i : grid0.Coords, EltTy.bits .f32 = 32 ∨ (Rect.block (s := S64x1x128) S1x1x128.size (cc0_transform_3 i) (hinb0_3 i)).WholeWords (EltTy.packing .f32)

variable [Facts₀]

def dot_S200x1000_S1000x400_S200x400_1_0_0_1_n_n : DotDims S200x1000 S1000x400 S200x400 where
  lhsContracting := [1]
  rhsContracting := [0]
  lhsNonContracting := [0]
  rhsNonContracting := [1]
  lhsBatch := []
  rhsBatch := []
  wf := dot_S200x1000_S1000x400_S200x400_1_0_0_1_n_n_wf

abbrev win0_0 : Pipeline.Window sig grid0 :=
  Pipeline.Window.ofSpec (Memref.whole main_arg0) S1x200x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x200x20000 : Shape := ⟨3, ![64, 200, 20000]⟩
abbrev S64x200 : Shape := ⟨2, ![64, 200]⟩
abbrev S64 : Shape := ⟨1, ![64]⟩
abbrev S64x1 : Shape := ⟨2, ![64, 1]⟩
abbrev S64x200x1 : Shape := ⟨3, ![64, 200, 1]⟩
abbrev S64x1x200 : Shape := ⟨3, ![64, 1, 200]⟩
abbrev S_ : Shape := ⟨0, ![]⟩
abbrev S1 : Shape := ⟨1, ![1]⟩
abbrev S1x1x1 : Shape := ⟨3, ![1, 1, 1]⟩
abbrev S64x200x200 : Shape := ⟨3, ![64, 200, 200]⟩
abbrev S64x200x200x1 : Shape := ⟨4, ![64, 200, 200, 1]⟩
abbrev S200 : Shape := ⟨1, ![200]⟩
abbrev S1x200 : Shape := ⟨2, ![1, 200]⟩

abbrev nBuf : Space → Nat
  | .hbm => 98
  | .vmem => 0
  | .smem => 0
  | _ => 0

abbrev bufTy : (tb : Table) → Fin (tcTables nBuf tb) → BufTy
  | .hbm, ⟨0, _⟩ => ⟨S64x200x20000, .f32⟩
  | .hbm, ⟨1, _⟩ => ⟨S64x200, .i32⟩
  | .hbm, ⟨2, _⟩ => ⟨S64, .i32⟩
  | .hbm, ⟨3, _⟩ => ⟨S64x1, .i32⟩
  | .hbm, ⟨4, _⟩ => ⟨S64x200x1, .i32⟩
  | .hbm, ⟨5, _⟩ => ⟨S64x1x200, .i32⟩
  | .hbm, ⟨6, _⟩ => ⟨S_, .i32⟩
  | .hbm, ⟨7, _⟩ => ⟨S64x1x200, .i32⟩
  | .hbm, ⟨8, _⟩ => ⟨S64x1x200, .i1⟩
  | .hbm, ⟨9, _⟩ => ⟨S_, .i32⟩
  | .hbm, ⟨10, _⟩ => ⟨S64x1x200, .i32⟩
  | .hbm, ⟨11, _⟩ => ⟨S64x1x200, .i32⟩
  | .hbm, ⟨12, _⟩ => ⟨S64x1x200, .i32⟩
  | .hbm, ⟨13, _⟩ => ⟨S64x200x1, .i32⟩
  | .hbm, ⟨14, _⟩ => ⟨S1, .i32⟩
  | .hbm, ⟨15, _⟩ => ⟨S_, .i32⟩
  | .hbm, ⟨16, _⟩ => ⟨S64x200x1, .i32⟩
  | .hbm, ⟨17, _⟩ => ⟨S64x200x1, .i1⟩
  | .hbm, ⟨18, _⟩ => ⟨S1x1x1, .i32⟩
  | .hbm, ⟨19, _⟩ => ⟨S64x200x1, .i32⟩
  | .hbm, ⟨20, _⟩ => ⟨S64x200x1, .i1⟩
  | .hbm, ⟨21, _⟩ => ⟨S64x200x1, .i1⟩
  | .hbm, ⟨22, _⟩ => ⟨S_, .i1⟩
  | .hbm, ⟨23, _⟩ => ⟨S64x200, .i1⟩
  | .hbm, ⟨24, _⟩ => ⟨S64x200x200, .f32⟩
  | .hbm, ⟨25, _⟩ => ⟨S64x200x200, .i1⟩
  | .hbm, ⟨26, _⟩ => ⟨S_, .f32⟩
  | .hbm, ⟨27, _⟩ => ⟨S64x200x200, .f32⟩
  | .hbm, ⟨28, _⟩ => ⟨S64x200x200, .f32⟩
  | .hbm, ⟨29, _⟩ => ⟨S64x1x200, .i32⟩
  | .hbm, ⟨30, _⟩ => ⟨S_, .i32⟩
  | .hbm, ⟨31, _⟩ => ⟨S64x1x200, .i32⟩
  | .hbm, ⟨32, _⟩ => ⟨S64x1x200, .i1⟩
  | .hbm, ⟨33, _⟩ => ⟨S_, .i32⟩
  | .hbm, ⟨34, _⟩ => ⟨S64x1x200, .i32⟩
  | .hbm, ⟨35, _⟩ => ⟨S64x1x200, .i32⟩
  | .hbm, ⟨36, _⟩ => ⟨S64x1x200, .i32⟩
  | .hbm, ⟨37, _⟩ => ⟨S64x200x1, .i32⟩
  | .hbm, ⟨38, _⟩ => ⟨S1, .i32⟩
  | .hbm, ⟨39, _⟩ => ⟨S_, .i32⟩
  | .hbm, ⟨40, _⟩ => ⟨S64x200x1, .i32⟩
  | .hbm, ⟨41, _⟩ => ⟨S64x200x1, .i1⟩
  | .hbm, ⟨42, _⟩ => ⟨S1x1x1, .i32⟩
  | .hbm, ⟨43, _⟩ => ⟨S64x200x1, .i32⟩
  | .hbm, ⟨44, _⟩ => ⟨S64x200x1, .i1⟩
  | .hbm, ⟨45, _⟩ => ⟨S64x200x1, .i1⟩
  | .hbm, ⟨46, _⟩ => ⟨S_, .i1⟩
  | .hbm, ⟨47, _⟩ => ⟨S64x200, .i1⟩
  | .hbm, ⟨48, _⟩ => ⟨S64x200x200, .f32⟩
  | .hbm, ⟨49, _⟩ => ⟨S64x200x200, .i1⟩
  | .hbm, ⟨50, _⟩ => ⟨S_, .f32⟩
  | .hbm, ⟨51, _⟩ => ⟨S64x200x200, .f32⟩
  | .hbm, ⟨52, _⟩ => ⟨S64x200x200, .f32⟩
  | .hbm, ⟨53, _⟩ => ⟨S64x200x200x1, .f32⟩
  | .hbm, ⟨54, _⟩ => ⟨S64x200x200x1, .f32⟩
  | .hbm, ⟨55, _⟩ => ⟨S64x200x200x1, .f32⟩
  | .hbm, ⟨56, _⟩ => ⟨S64x200x200x1, .f32⟩
  | .hbm, ⟨57, _⟩ => ⟨S_, .f32⟩
  | .hbm, ⟨58, _⟩ => ⟨S64x200x200x1, .f32⟩
  | .hbm, ⟨59, _⟩ => ⟨S64x200x200x1, .f32⟩
  | .hbm, ⟨60, _⟩ => ⟨S64x200x200x1, .f32⟩
  | .hbm, ⟨61, _⟩ => ⟨S64x200x200x1, .f32⟩
  | .hbm, ⟨62, _⟩ => ⟨S64x200x200x1, .i1⟩
  | .hbm, ⟨63, _⟩ => ⟨S64x200x200x1, .f32⟩
  | .hbm, ⟨64, _⟩ => ⟨S64x200x200x1, .f32⟩
  | .hbm, ⟨65, _⟩ => ⟨S64x200x200x1, .f32⟩
  | .hbm, ⟨66, _⟩ => ⟨S64x200x200x1, .f32⟩
  | .hbm, ⟨67, _⟩ => ⟨S64x200x200x1, .f32⟩
  | .hbm, ⟨68, _⟩ => ⟨S64x200x200x1, .f32⟩
  | .hbm, ⟨69, _⟩ => ⟨S64x200x200x1, .f32⟩
  | .hbm, ⟨70, _⟩ => ⟨S64x200x200x1, .f32⟩
  | .hbm, ⟨71, _⟩ => ⟨S64x200x200x1, .f32⟩
  | .hbm, ⟨72, _⟩ => ⟨S200, .i32⟩
  | .hbm, ⟨73, _⟩ => ⟨S1x200, .i32⟩
  | .hbm, ⟨74, _⟩ => ⟨S64x1, .i32⟩
  | .hbm, ⟨75, _⟩ => ⟨S64x200, .i32⟩
  | .hbm, ⟨76, _⟩ => ⟨S64x200, .i32⟩
  | .hbm, ⟨77, _⟩ => ⟨S64x200, .i1⟩
  | .hbm, ⟨78, _⟩ => ⟨S64x200x1, .i1⟩
  | .hbm, ⟨79, _⟩ => ⟨S64x1x200, .i1⟩
  | .hbm, ⟨80, _⟩ => ⟨S64x200x200, .i1⟩
  | .hbm, ⟨81, _⟩ => ⟨S64x200x200, .i1⟩
  | .hbm, ⟨82, _⟩ => ⟨S64x200x200, .i1⟩
  | .hbm, ⟨83, _⟩ => ⟨S64x200x200, .f32⟩
  | .hbm, ⟨84, _⟩ => ⟨S64x200x200x1, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x200x200x1, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S1, .f32⟩
  | _, _ => ⟨S64x200x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_call2_v0 : Ref sig .tc := ⟨.hbm, 56, rfl⟩
abbrev main_call2_call0_cst : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7 : Ref sig .tc := ⟨.hbm, 65, rfl⟩
abbrev main_call2_call0_v8 : Ref sig .tc := ⟨.hbm, 66, rfl⟩
abbrev main_call2_call0_v9 : Ref sig .tc := ⟨.hbm, 67, rfl⟩
abbrev main_call2_call0_v10 : Ref sig .tc := ⟨.hbm, 68, rfl⟩
abbrev main_call2_call0_v11 : Ref sig .tc := ⟨.hbm, 69, rfl⟩
abbrev main_call2_v1 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_cst : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_cst_0 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_1 : Ref sig .tc := ⟨.hbm, 95, rfl⟩
abbrev main_v29 : Ref sig .tc := ⟨.hbm, 96, rfl⟩
abbrev main_v30 : Ref sig .tc := ⟨.hbm, 97, rfl⟩

abbrev nD : Nat := 1
abbrev τ : Topo := Topo.v7x

variable {F : FTy → Type} [FloatOps F]

class Facts₀ : Prop where
  bcast_S64x200_S64x1x200_0_2 : S64x200.BroadcastsInDim S64x1x200 (![0, 2] : Fin 2 → Fin S64x1x200.rank)
  bcast_S_S64x1x200 : S_.BroadcastsInDim S64x1x200 (![] : Fin 0 → Fin S64x1x200.rank)
  shapeCasts_S64x1x200_S64x200x1 : S64x1x200.ShapeCasts S64x200x1
  bcast_S_S64x200x1 : S_.BroadcastsInDim S64x200x1 (![] : Fin 0 → Fin S64x200x1.rank)
  bcast_S1_S1x1x1_2 : S1.BroadcastsInDim S1x1x1 (![2] : Fin 1 → Fin S1x1x1.rank)
  bcast_S1x1x1_S64x200x1_0_1_2 : S1x1x1.BroadcastsInDim S64x200x1 (![0, 1, 2] : Fin 3 → Fin S64x200x1.rank)
  reducesTo_S64x200x1_S64x200_d2 : S64x200x1.ReducesTo [2] S64x200
  h_S_ : 0 < S_.numel
  bcast_S64x200_S64x200x200_0_2 : S64x200.BroadcastsInDim S64x200x200 (![0, 2] : Fin 2 → Fin S64x200x200.rank)
  bcast_S_S64x200x200 : S_.BroadcastsInDim S64x200x200 (![] : Fin 0 → Fin S64x200x200.rank)
  shapeCasts_S64x200x1_S64x1x200 : S64x200x1.ShapeCasts S64x1x200
  shapeCasts_S64x200x200_S64x200x200x1 : S64x200x200.ShapeCasts S64x200x200x1
  bcast_S64x200x200_S64x200x200x1_0_1_2 : S64x200x200.BroadcastsInDim S64x200x200x1 (![0, 1, 2] : Fin 3 → Fin S64x200x200x1.rank)
  bcast_S_S64x200x200x1 : S_.BroadcastsInDim S64x200x200x1 (![] : Fin 0 → Fin S64x200x200x1.rank)
  bcast_S200_S1x200_1 : S200.BroadcastsInDim S1x200 (![1] : Fin 1 → Fin S1x200.rank)
  bcast_S64_S64x1_0 : S64.BroadcastsInDim S64x1 (![0] : Fin 1 → Fin S64x1.rank)
  bcast_S1x200_S64x200_0_1 : S1x200.BroadcastsInDim S64x200 (![0, 1] : Fin 2 → Fin S64x200.rank)
  bcast_S64x1_S64x200_0_1 : S64x1.BroadcastsInDim S64x200 (![0, 1] : Fin 2 → Fin S64x200.rank)
  bcast_S64x200_S64x200x1_0_1 : S64x200.BroadcastsInDim S64x200x1 (![0, 1] : Fin 2 → Fin S64x200x1.rank)
  bcast_S64x200x1_S64x200x200_0_1_2 : S64x200x1.BroadcastsInDim S64x200x200 (![0, 1, 2] : Fin 3 → Fin S64x200x200.rank)
  bcast_S64x1x200_S64x200x200_0_1_2 : S64x1x200.BroadcastsInDim S64x200x200 (![0, 1, 2] : Fin 3 → Fin S64x200x200.rank)
  bcast_S_S64 : S_.BroadcastsInDim S64 (![] : Fin 0 → Fin S64.rank)
  reducesTo_S64x200x200x1_S64_d1_2_3 : S64x200x200x1.ReducesTo [1, 2, 3] S64
  reducesTo_S64_S_d0 : S64.ReducesTo [0] S_
  bcast_S_S1 : S_.BroadcastsInDim S1 (![] : Fin 0 → Fin S1.rank)
  gather_S64x200x20000_S64x200x1_S64x200x200_1_2_0_0_2_2_12001_wf : GatherDims.WF S64x200x20000 S64x200x1 S64x200x200 [1] [2] [0] [2] [0] 2 ![1, 200, 1]

variable [Facts₀]

def gather_S64x200x20000_S64x200x1_S64x200x200_1_2_0_0_2_2_12001 : GatherDims S64x200x20000 S64x200x1 S64x200x200 where
  offsetDims := [1]
  collapsedSliceDims := [2]
  operandBatchingDims := [0]
  startIndicesBatchingDims := [0]
  startIndexMap := [2]
  indexVectorDim := 2
  sliceSizes := ![1, 200, 1]
  wf := gather_S64x200x20000_S64x200x1_S64x200x200_1_2_0_0_2_2_12001_wf

class Facts : Prop extends Facts₀ where

variable [Facts]
-- ==== Proof.Spec.lean ====
/-
  The value both programs compute, as one function of the four argument arrays.

  For a sample `b`, a row `i` and a column `j` the score of the pair is
  `logσ (o[b, i, lab[b, j]] − o[b, i, neg[b, j, 0]])`, where `logσ d = −softplus (−d)` and
  `softplus z = max z 0 + log (1 + exp (−|z|))`; it counts when both `i` and `j` lie below the sample's length
  (compared as signed words). The sample's value is minus the sum of the counted scores over the length squared, and the
  result is the sum of the samples' values.

  An entry of a row is selected by an index WORD: the entry at the word's value when that is below the row's extent
  20000, and `0` otherwise (`selRow`) — a sum of the row against the indicator of the word, which has no term at all
  for a word outside the row.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- `softplus z = max z 0 + log (1 + exp (−|z|))`, with `|z| = max z (−z)`. -/
def softplus (z : EReal) : EReal := max z 0 + Ideal.log1p (Ideal.exp (-(max z (-z))))

/-- `logσ d = −softplus (−d)`. -/
def logSigmoid (d : EReal) : EReal := -(softplus (-d))

/-- A truth bit as the number 0 or 1. -/
def bit01 (b : BitVec 1) : EReal := ((b.toNat : ℝ) : EReal)

/-- The pair `(i, j)` counts when both positions are below the length word, signed. -/
def vmask (len : BitVec 32) (i j : Fin 200) : EReal :=
  bit01 (IntOp.andi (IntOp.cmpi .slt (BitVec.ofNat 32 i.val) len) (IntOp.cmpi .slt (BitVec.ofNat 32 j.val) len))

/-- The length word as a number (signed). -/
def lenF (len : BitVec 32) : EReal := ((len.toInt : ℝ) : EReal)

/-- The f32 pattern of 1.0, read at the extended reals. -/
def oneF : EReal := Ideal.ofBits .f32 0x3F800000#32

/-- The entry of a row that an index word selects: the entry at the word's value when it is a position of the row,
    `0` when it is not. -/
def selRow (a : Fin 20000 → EReal) (w : BitVec 32) : EReal :=
  if h : w.toNat < 20000 then a ⟨w.toNat, h⟩ else 0

/-- The counted score of the pair `(i, j)` of one sample. -/
def pairTerm (a : Fin 200 → Fin 20000 → EReal) (p n : Fin 200 → BitVec 32) (len : BitVec 32) (i j : Fin 200) : EReal :=
  logSigmoid (selRow (a i) (p j) - selRow (a i) (n j)) * vmask len i j

/-- One sample's value: minus the sum of its counted scores, over its length squared (times one). -/
def sampleVal (a : Fin 200 → Fin 20000 → EReal) (p n : Fin 200 → BitVec 32) (len : BitVec 32) : EReal :=
  Ideal.div (-(∑ i : Fin 200, ∑ j : Fin 200, pairTerm a p n len i j)) (lenF len * lenF len * oneF)

/-- Sample `b`'s value read off the four argument arrays. -/
def sampleOf (o : FVec Ideal ⟨3, ![64, 200, 20000]⟩ .f32) (lab : IVec ⟨2, ![64, 200]⟩ 32) (lens : IVec ⟨1, ![64]⟩ 32)
    (neg : IVec ⟨3, ![64, 200, 1]⟩ 32) (b : Fin 64) : EReal :=
  sampleVal (fun i v => o (ix3 b i v)) (fun j => lab (ix2 b j)) (fun j => neg (ix3 b j 0)) (lens (ix1 b))

/-- The result: the sum of the samples' values, as a one-element array. -/
def G (o : FVec Ideal ⟨3, ![64, 200, 20000]⟩ .f32) (lab : IVec ⟨2, ![64, 200]⟩ 32) (lens : IVec ⟨1, ![64]⟩ 32)
    (neg : IVec ⟨3, ![64, 200, 1]⟩ 32) : FVec Ideal ⟨1, ![1]⟩ .f32 :=
  fun _ => ∑ b : Fin 64, sampleOf o lab lens neg b

/-! ## Small facts both sides use -/

/-- No extended real differs from itself: the not-equal test of a value with itself is the bit 0, whichever of its two
    spellings is used. -/
theorem cmp_one_self (z : EReal) : Ideal.cmp .one z z = 0#1 := by
  simp [Ideal.cmp]

theorem cmp_une_self (z : EReal) : Ideal.cmp .une z z = 0#1 := by
  simp [Ideal.cmp]

/-- A truth bit widened to a word and read signed is the bit's number. -/
theorem bit01_setWidth (b : BitVec 1) : (((b.setWidth 32).toInt : ℝ) : EReal) = bit01 b := by
  have h : ∀ b : BitVec 1, (b.setWidth 32).toInt = (b.toNat : Int) := by decide
  unfold bit01
  rw [h b]
  norm_cast

/-- The zero pattern is the number zero. -/
theorem zeroF : Ideal.ofBits .f32 0x00000000#32 = 0 := Ideal.ofBits_zero_f32

/-- A selected entry of a row, for a word that is a position of the row. -/
theorem selRow_of_lt (a : Fin 20000 → EReal) (w : BitVec 32) (h : w.toNat < 20000) : selRow a w = a ⟨w.toNat, h⟩ := by
  unfold selRow; rw [dif_pos h]

end Cert.Spec

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.OneHot.lean ====
/-
  One chunk of the selection product, and the twenty chunks together.

  The body multiplies a [200, 1000] slab of the sample's rows by the [1000, 400] matrix whose entry (k, j) is 1 when the
  position `s + k` of the slab's column equals the index word `j`, and 0 otherwise. Entry (i, j) of the product is
  the sum over the slab's columns of the row's entry times that indicator. Over the twenty slabs that tile a row of
  20000 entries the sums add up to the row's entry selected by the word: every position meets the word at most once, and
  a word that is no position of the row meets none.
-/
import proofs.«408047_j78417512891010_1_alg».proof.KernelIdeal
import proofs.«408047_j78417512891010_1_alg».proof.Proof.Gen.KernelIdeal
import proofs.«408047_j78417512891010_1_alg».proof.Proof.Spec
import proofs.«408047_j78417512891010_1_alg».proof.Proof.LibPlainProduct
import Idealize.ShloMosaic.Lib.Pipeline.Value

set_option maxRecDepth 16384

noncomputable section

open scoped BigOperators

namespace Cert.KernelIdeal.OneHot

open Idealize.ShloMosaic Idealize.ShloMosaic.ValueIdx Cert.KernelIdeal
open Cert.KernelIdeal.Facts₀ Cert.KernelIdeal.Facts

/-- One slab's product as the body spells it: the slab narrowed, the indicator matrix built from the positions
    `iota + s` against the index row, multiplied into the zero splat. -/
def chunk (s : BitVec 32) (x : Vec Ideal S1x200x1000 .f32) (v1 : IVec S1x400 32) : FVec Ideal S200x400 .f32 :=
  matmul dot_S200x1000_S1000x400_S200x400_1_0_0_1_n_n none
    (truncf .bf16 (shapeCast S200x1000 x shapeCasts_S1x200x1000_S200x1000) bitsLt_bf16_f32)
    (truncf .bf16 (sitofp .f32 (extui 32 (cmpi .eq
      (broadcastTo S1000x400 (addi (iota .tc S1000x1 32 [0] iota_S1000x1_d0_w32) (broadcast S1000x1 s)) broadcasts_S1000x1_S1000x400)
      (broadcastTo S1000x400 v1 broadcasts_S1x400_S1000x400)) natLt_1_32)) bitsLt_bf16_f32)
    (constant S200x400 .f32 0x00000000#32)

/-! ## The record of the product is a plain one -/

private theorem isPlain : Cert.Lib.PlainProduct.IsPlain dot_S200x1000_S1000x400_S200x400_1_0_0_1_n_n :=
  ⟨rfl, rfl, rfl, rfl, rfl, rfl⟩

/-! ## The operands read at an entry -/

/-- The narrowed slab at (i, k) is the slab's entry (0, i, k): narrowing changes nothing over the extended reals, and
    the cast drops the leading unit axis. -/
private theorem lhs_apply (x : Vec Ideal S1x200x1000 .f32) (i : Fin 200) (k : Fin 1000) :
    (truncf .bf16 (shapeCast S200x1000 x shapeCasts_S1x200x1000_S200x1000) bitsLt_bf16_f32 : FVec Ideal S200x1000 .bf16) (ix2 i k)
      = x (ix3 0 i k) := by
  rw [truncf_apply]
  exact shapeCast_apply x shapeCasts_S1x200x1000_S200x1000 (ix2 i k) (ix3 0 i k) (by
    rw [Shape.rowMajor_val_three, Shape.rowMajor_val_two]
    show (0 * 200 + i.val) * 1000 + k.val = i.val * 1000 + k.val
    rw [Nat.zero_mul, Nat.zero_add])

/-- The column of positions, spread over the matrix, at (k, j): the position `k` plus the slab's start. -/
private theorem pos_apply (s : BitVec 32) (k : Fin 1000) (j : Fin 400) :
    broadcastTo S1000x400 (addi (iota .tc S1000x1 32 [0] iota_S1000x1_d0_w32) (broadcast S1000x1 s)) broadcasts_S1000x1_S1000x400 (ix2 k j)
      = BitVec.ofNat 32 k.val + s := by
  rw [broadcastTo_apply _ broadcasts_S1000x1_S1000x400 (ix2 k j) (ix2 k (0 : Fin 1)) (fun ax => by
    match ax with
    | ⟨0, _⟩ => rfl
    | ⟨1, _⟩ => rfl)]
  show IntOp.addi (iota .tc S1000x1 32 [0] iota_S1000x1_d0_w32 (ix2 k (0 : Fin 1))) s = _
  rw [iota_single_apply]
  rfl

/-- The row of index words, spread over the matrix, at (k, j): the word `j`. -/
private theorem word_apply (v1 : IVec S1x400 32) (k : Fin 1000) (j : Fin 400) :
    broadcastTo S1000x400 v1 broadcasts_S1x400_S1000x400 (ix2 k j) = v1 (ix2 0 j) := by
  refine broadcastTo_apply v1 broadcasts_S1x400_S1000x400 (ix2 k j) (ix2 (0 : Fin 1) j) (fun ax => ?_)
  match ax with
  | ⟨0, _⟩ => rfl
  | ⟨1, _⟩ => rfl

/-- A truth bit of an equality test, as a number: 1 when the words are equal and 0 when they are not. -/
private theorem bit_eq (a b : BitVec 32) :
    ((((IntOp.cmpi .eq a b).setWidth 32).toInt : ℝ) : EReal) = if a = b then (1 : EReal) else 0 := by
  rw [Cert.Spec.bit01_setWidth]
  unfold Cert.Spec.bit01
  by_cases h : a = b
  · have e : IntOp.cmpi .eq a b = 1#1 := by
      simp only [IntOp.cmpi, h, beq_self_eq_true, BitVec.ofBool_true]
      rfl
    rw [e, if_pos h]
    norm_num
  · have e : IntOp.cmpi .eq a b = 0#1 := by
      have hb : (a == b) = false := by simpa using h
      simp only [IntOp.cmpi, hb, BitVec.ofBool_false]
      rfl
    rw [e, if_neg h]
    norm_num

/-- The indicator matrix at (k, j). -/
private theorem rhs_apply (s : Nat) (v1 : IVec S1x400 32) (k : Fin 1000) (j : Fin 400) :
    (truncf .bf16 (sitofp .f32 (extui 32 (cmpi .eq
      (broadcastTo S1000x400 (addi (iota .tc S1000x1 32 [0] iota_S1000x1_d0_w32) (broadcast S1000x1 (BitVec.ofNat 32 s))) broadcasts_S1000x1_S1000x400)
      (broadcastTo S1000x400 v1 broadcasts_S1x400_S1000x400)) natLt_1_32)) bitsLt_bf16_f32 : FVec Ideal S1000x400 .bf16) (ix2 k j)
      = if BitVec.ofNat 32 (s + k.val) = v1 (ix2 0 j) then (1 : EReal) else 0 := by
  rw [truncf_apply, sitofp_apply, extui_apply]
  show ((((IntOp.cmpi .eq
      (broadcastTo S1000x400 (addi (iota .tc S1000x1 32 [0] iota_S1000x1_d0_w32) (broadcast S1000x1 (BitVec.ofNat 32 s))) broadcasts_S1000x1_S1000x400 (ix2 k j))
      (broadcastTo S1000x400 v1 broadcasts_S1x400_S1000x400 (ix2 k j))).setWidth 32).toInt : ℝ) : EReal) = _
  rw [pos_apply, word_apply, bit_eq, BitVec.ofNat_add, BitVec.add_comm]

/-- Entry (i, j) of one slab's product: the row's entries of the slab against the indicator of the word. -/
theorem chunk_apply (s : Nat) (hs : s + 1000 ≤ 20000) (x : Vec Ideal S1x200x1000 .f32) (v1 : IVec S1x400 32)
    (i : Fin 200) (j : Fin 400) :
    chunk (BitVec.ofNat 32 s) x v1 (ix2 i j)
      = ∑ k : Fin 1000, x (ix3 0 i k) * (if BitVec.ofNat 32 (s + k.val) = v1 (ix2 0 j) then (1 : EReal) else 0) := by
  unfold chunk
  refine (Cert.Lib.PlainProduct.matmul_zero_apply isPlain none _ _ i j).trans ?_
  refine Finset.sum_congr rfl fun k _ => ?_
  rw [lhs_apply, rhs_apply]

/-! ## Words and positions -/

/-- A number below 2³² is a word's value exactly when its word is that word. -/
private theorem ofNat_eq_iff (n : Nat) (hn : n < 2 ^ 32) (w : BitVec 32) : BitVec.ofNat 32 n = w ↔ n = w.toNat := by
  constructor
  · intro h
    rw [← h, BitVec.toNat_ofNat, Nat.mod_eq_of_lt hn]
  · intro h
    apply BitVec.eq_of_toNat_eq
    rw [BitVec.toNat_ofNat, Nat.mod_eq_of_lt hn, h]

/-- The twenty slabs of a row together select the row's entry at the word (or nothing). -/
theorem sum_chunks (a : Fin 20000 → EReal) (w : BitVec 32) :
    ∑ c : Fin 20, ∑ k : Fin 1000,
        a ⟨1000 * c.val + k.val, by have := c.isLt; have := k.isLt; omega⟩
          * (if BitVec.ofNat 32 (1000 * c.val + k.val) = w then (1 : EReal) else 0)
      = Spec.selRow a w := by
  by_cases hw : w.toNat < 20000
  · rw [Spec.selRow_of_lt a w hw]
    have hc : w.toNat / 1000 < 20 := by omega
    have hk : w.toNat % 1000 < 1000 := Nat.mod_lt _ (by norm_num)
    have e : 1000 * (w.toNat / 1000) + w.toNat % 1000 = w.toNat := Nat.div_add_mod _ _
    rw [Finset.sum_eq_single (⟨w.toNat / 1000, hc⟩ : Fin 20)]
    · rw [Finset.sum_eq_single (⟨w.toNat % 1000, hk⟩ : Fin 1000)]
      · rw [if_pos ((ofNat_eq_iff _ (by omega) w).2 e), mul_one]
        exact congrArg a (Fin.ext e)
      · intro k _ hne
        rw [if_neg, mul_zero]
        intro h
        have h' := (ofNat_eq_iff _ (by have := k.isLt; omega) w).1 h
        apply hne
        apply Fin.ext
        show k.val = w.toNat % 1000
        have h'' : 1000 * (w.toNat / 1000) + k.val = w.toNat := h'
        omega
      · intro h
        exact absurd (Finset.mem_univ _) h
    · intro c _ hne
      apply Finset.sum_eq_zero
      intro k _
      rw [if_neg, mul_zero]
      intro h
      have h' := (ofNat_eq_iff _ (by have := c.isLt; have := k.isLt; omega) w).1 h
      apply hne
      apply Fin.ext
      show c.val = w.toNat / 1000
      have := k.isLt
      omega
    · intro h
      exact absurd (Finset.mem_univ _) h
  · unfold Spec.selRow
    rw [dif_neg hw]
    apply Finset.sum_eq_zero
    intro c _
    apply Finset.sum_eq_zero
    intro k _
    rw [if_neg, mul_zero]
    intro h
    have h' := (ofNat_eq_iff _ (by have := c.isLt; have := k.isLt; omega) w).1 h
    have := c.isLt
    have := k.isLt
    omega

end Cert.KernelIdeal.OneHot

end
-- ==== Proof.Tail.lean ====
/-
  The end of the body: the pointwise log-sigmoid chain, and the masked double sum over the length squared.

  The chain is `0 − softplus (0 − d)` with `softplus z = max z 0 + log1p (exp (0 − |z − 0|))` behind a test of
  `z − 0` against itself, which never fires over the extended reals; pointwise it is `logσ d`. The last payload
  multiplies the scores by the 0/1 mask of the pairs below the length word, sums the rows and then the row sums, negates,
  divides by the length squared times one, and lays the one number along 128 lanes.
-/
import proofs.«408047_j78417512891010_1_alg».proof.KernelIdeal
import proofs.«408047_j78417512891010_1_alg».proof.Proof.Gen.KernelIdeal
import proofs.«408047_j78417512891010_1_alg».proof.Proof.Gen.KernelIdeal.Skeleton
import proofs.«408047_j78417512891010_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Tail

open Idealize.ShloMosaic Idealize.ShloMosaic.ValueIdx Cert.KernelIdeal
open Cert.KernelIdeal.Facts₀ Cert.KernelIdeal.Facts

/-- The log-sigmoid chain as the body spells it, of the difference `d`. -/
def lsChain (d : FVec Ideal S200x200 .f32) : FVec Ideal S200x200 .f32 :=
  have v287 : FVec Ideal S200x200 .f32 := subf (broadcast S200x200 (Scalar.ofBits .f32 0x00000000#32)) d
  have v288 : FVec Ideal S200x200 .f32 := broadcast S200x200 (Scalar.ofBits .f32 0x00000000#32)
  have v289 : FVec Ideal S200x200 .f32 := maximumf v287 v288
  have v291 : FVec Ideal S200x200 .f32 := subf v287 v288
  have v292 : IVec S200x200 1 := cmpf .one v291 v291
  have v294 : FVec Ideal S200x200 .f32 := addf v287 v288
  have v295 : FVec Ideal S200x200 .f32 := absf v291
  have v297 : FVec Ideal S200x200 .f32 := subf (broadcast S200x200 (Scalar.ofBits .f32 0x00000000#32)) v295
  have v298 : FVec Ideal S200x200 .f32 := exp v297
  have v299 : FVec Ideal S200x200 .f32 := log1p v298
  have v300 : FVec Ideal S200x200 .f32 := addf v289 v299
  have v301 : FVec Ideal S200x200 .f32 := select v292 v294 v300
  subf (broadcast S200x200 (Scalar.ofBits .f32 0x00000000#32)) v301

/-- Pointwise the chain is the log-sigmoid. -/
theorem lsChain_apply (d : FVec Ideal S200x200 .f32) (i j : Fin 200) :
    lsChain d (ix2 i j) = Spec.logSigmoid (d (ix2 i j)) := by
  have hz : (Scalar.ofBits .f32 0x00000000#32 : Ideal .f32) = (0 : EReal) := Spec.zeroF
  unfold lsChain
  simp only [subf_apply, maximumf_apply, addf_apply, broadcast_apply, select_apply, cmpf_apply, absf, exp, log1p,
    Ideal.cmpf_def, Ideal.absf_def, Ideal.exp_def, Ideal.log1p_def, hz, Spec.cmp_one_self, select_zero, sub_zero,
    zero_sub]
  rfl

/-- The 0/1 mask at a pair: both positions below the length word. -/
private theorem mask_apply (v307 : IVec S1x1 32) (h0 : S200x200.Iotas .tc 32 [0]) (h1 : S200x200.Iotas .tc 32 [1])
    (hb : S1x1.Broadcasts S200x200) (hlt : 1 < 32) (i j : Fin 200) :
    (sitofp .f32 (extui 32 (andi (cmpi .slt (iota .tc S200x200 32 [0] h0) (broadcastTo S200x200 v307 hb))
        (cmpi .slt (iota .tc S200x200 32 [1] h1) (broadcastTo S200x200 v307 hb))) hlt) : FVec Ideal S200x200 .f32) (ix2 i j)
      = Spec.vmask (v307 (ix2 0 0)) i j := by
  have e : broadcastTo S200x200 v307 hb (ix2 i j) = v307 (ix2 0 0) :=
    broadcastTo_apply v307 hb (ix2 i j) (ix2 0 0) (fun a => match a with | ⟨0, _⟩ => rfl | ⟨1, _⟩ => rfl)
  have e0 : iota .tc S200x200 32 [0] h0 (ix2 i j) = BitVec.ofNat 32 i.val :=
    iota_single_apply .tc S200x200 32 0 h0 (ix2 i j)
  have e1 : iota .tc S200x200 32 [1] h1 (ix2 i j) = BitVec.ofNat 32 j.val :=
    iota_single_apply .tc S200x200 32 1 h1 (ix2 i j)
  show ((((IntOp.andi (IntOp.cmpi .slt (iota .tc S200x200 32 [0] h0 (ix2 i j)) (broadcastTo S200x200 v307 hb (ix2 i j)))
      (IntOp.cmpi .slt (iota .tc S200x200 32 [1] h1 (ix2 i j)) (broadcastTo S200x200 v307 hb (ix2 i j)))).setWidth 32).toInt : ℝ) : EReal) = _
  rw [e, e0, e1, Spec.bit01_setWidth]
  rfl

/-- The lane sum of a block at row `i` is the sum of the row. -/
private theorem rowSum_apply (x : FVec Ideal S200x200 .f32) (h : S200x200.Reduces [1] S200) (hφ : FKind.Formats .f32)
    (hacc : (0x00000000#32 : BitVec 32) = FKind.add.neutral .f32 hφ) (i : Fin 200) :
    multiReduction .add [1] S200 x 0x00000000#32 h hφ hacc (ix1 i) = ∑ j : Fin 200, x (ix2 i j) := by
  rw [Ideal.multiReduction_add_single]
  show ∑ k : Fin 200, x (h.lift (ix1 i) k) = _
  refine Finset.sum_congr rfl fun k _ => congrArg x ?_
  funext c
  match c with
  | ⟨0, _⟩ => exact Fin.ext rfl
  | ⟨1, _⟩ => exact Fin.ext rfl

/-- The sum of a one-column block over its rows. -/
private theorem colSum_apply (x : FVec Ideal S200x1 .f32) (h : S200x1.Reduces [0] S1) (hφ : FKind.Formats .f32)
    (hacc : (0x00000000#32 : BitVec 32) = FKind.add.neutral .f32 hφ) :
    multiReduction .add [0] S1 x 0x00000000#32 h hφ hacc (ix1 0) = ∑ i : Fin 200, x (ix2 i 0) := by
  rw [Ideal.multiReduction_add_single]
  show ∑ k : Fin 200, x (h.lift (ix1 0) k) = _
  refine Finset.sum_congr rfl fun k _ => congrArg x ?_
  funext c
  match c with
  | ⟨0, _⟩ => exact Fin.ext rfl
  | ⟨1, _⟩ => exact Fin.ext rfl

/-- The last payload, at any lane: minus the masked double sum of the scores, over the length squared times one. -/
theorem pay1_apply (v303 : FVec Ideal S200x200 .f32) (v307 : IVec S1x1 32) (y : S1x1x128.Idx) :
    Gen.k0_pay1 v303 (iota .tc S200x200 32 [0] iota_S200x200_d0_w32) (iota .tc S200x200 32 [1] iota_S200x200_d1_w32) v307 y
      = Ideal.div (-(∑ i : Fin 200, ∑ j : Fin 200, v303 (ix2 i j) * Spec.vmask (v307 (ix2 0 0)) i j))
          (Spec.lenF (v307 (ix2 0 0)) * Spec.lenF (v307 (ix2 0 0)) * Spec.oneF) := by
  obtain ⟨a, b, c, rfl⟩ : ∃ a b c, y = ix3 a b c := ⟨y 0, y 1, y 2, eq_ix3 y⟩
  unfold Gen.k0_pay1
  dsimp only []
  rw [shapeCast_apply _ _ (ix3 a b c) (ix2 0 c) (by rw [Shape.rowMajor_val_two, Shape.rowMajor_val_three]; simp)]
  rw [broadcastTo_apply _ _ (ix2 0 c) (ix2 0 0) (fun a => match a with | ⟨0, _⟩ => rfl | ⟨1, _⟩ => rfl)]
  rw [shapeCast_self]
  rw [divf_apply, subf_apply, mulf_apply, mulf_apply, broadcast_apply, broadcast_apply]
  rw [shapeCast_apply _ _ (ix2 0 0) (ix1 0) (by rw [Shape.rowMajor_val_two, Shape.rowMajor_val_one]; rfl)]
  refine congrArg₂ Ideal.div ?_ rfl
  refine (congrArg₂ (· - ·) Spec.zeroF ?_).trans (zero_sub _)
  refine (colSum_apply _ _ _ _).trans ?_
  refine Finset.sum_congr rfl fun i _ => ?_
  refine (shapeCast_apply _ _ (ix2 i 0) (ix1 i) (by rw [Shape.rowMajor_val_two, Shape.rowMajor_val_one]; simp)).trans ?_
  refine (rowSum_apply _ _ _ _ i).trans ?_
  refine Finset.sum_congr rfl fun j _ => ?_
  rw [mulf_apply, mask_apply]

end Cert.KernelIdeal.Tail

end
-- ==== Proof.Body.lean ====
/-
  What the body leaves in the output block, as a function of the three input blocks.

  The accumulator is the zero splat plus the twenty slab products, so its entry (i, j) is the entry of row i that the
  index word j selects; its left and right halves are the selections by the label words and by the negative words; the
  log-sigmoid chain of their difference goes through the masked double sum. Every lane of the block is the sample's
  value.
-/
import proofs.«408047_j78417512891010_1_alg».proof.KernelIdeal
import proofs.«408047_j78417512891010_1_alg».proof.Proof.Gen.KernelIdeal.Frame
import proofs.«408047_j78417512891010_1_alg».proof.Proof.Spec
import proofs.«408047_j78417512891010_1_alg».proof.Proof.OneHot
import proofs.«408047_j78417512891010_1_alg».proof.Proof.Tail
import Idealize.ShloMosaic.Lib.Pipeline.Value

set_option maxRecDepth 16384

noncomputable section

open scoped BigOperators

namespace Cert.KernelIdeal.Body

open Idealize.ShloMosaic Idealize.ShloMosaic.ValueIdx Cert.KernelIdeal
open Cert.KernelIdeal.Facts₀ Cert.KernelIdeal.Facts
open Cert.KernelIdeal.Gen

/-- The zero offsets of a whole rank-3 block, spelt as a function. -/
private theorem hz3 : (![0, 0, 0] : Fin 3 → Nat) = fun _ => 0 := funext fun a => by fin_cases a <;> rfl

/-- The length word of the block: the one entry of the length block. -/
private theorem pay17_apply (x2 : Vec Ideal S1x1x1 .i32) :
    k0_pay17 (View.ld x2 r0_21) (ix2 0 0) = x2 (ix3 0 0 0) := by
  rw [View.ld_unit_zero (S := S1x1x1) hz3]
  unfold k0_pay17
  refine (shapeCast_dropUnit_apply _ _ _ _).trans ?_
  congr 1
  funext a
  match a with
  | ⟨0, _⟩ => rfl
  | ⟨1, _⟩ => rfl
  | ⟨2, _⟩ => rfl

/-- The index row of the block: word j is entry j of the index block. -/
private theorem pay2_apply (x1 : Vec Ideal S1x1x400 .i32) (j : Fin 400) :
    k0_pay2 (View.ld x1 r0_0) (ix2 0 j) = x1 (ix3 0 0 j) := by
  rw [View.ld_unit_zero (S := S1x1x400) hz3]
  unfold k0_pay2
  refine (shapeCast_dropUnit_apply _ _ _ _).trans ?_
  congr 1
  funext a
  match a with
  | ⟨0, _⟩ => rfl
  | ⟨1, _⟩ => rfl
  | ⟨2, _⟩ => rfl

/-- The accumulator after the twenty slabs: the zero splat plus the twenty slab products, in the body's order. -/
private def acc20 (x0 : Vec Ideal S1x200x20000 .f32) (v1 : IVec S1x400 32) : FVec Ideal S200x400 .f32 :=
  addf (addf (addf (addf (addf (addf (addf (addf (addf (addf (addf (addf (addf (addf (addf (addf (addf (addf (addf (addf (broadcast S200x400 (Scalar.ofBits (F := Ideal) .f32 0x00000000#32)) (OneHot.chunk 0#32 (View.ld x0 r0_1) v1)) (OneHot.chunk 1000#32 (View.ld x0 r0_2) v1)) (OneHot.chunk 2000#32 (View.ld x0 r0_3) v1)) (OneHot.chunk 3000#32 (View.ld x0 r0_4) v1)) (OneHot.chunk 4000#32 (View.ld x0 r0_5) v1)) (OneHot.chunk 5000#32 (View.ld x0 r0_6) v1)) (OneHot.chunk 6000#32 (View.ld x0 r0_7) v1)) (OneHot.chunk 7000#32 (View.ld x0 r0_8) v1)) (OneHot.chunk 8000#32 (View.ld x0 r0_9) v1)) (OneHot.chunk 9000#32 (View.ld x0 r0_10) v1)) (OneHot.chunk 10000#32 (View.ld x0 r0_11) v1)) (OneHot.chunk 11000#32 (View.ld x0 r0_12) v1)) (OneHot.chunk 12000#32 (View.ld x0 r0_13) v1)) (OneHot.chunk 13000#32 (View.ld x0 r0_14) v1)) (OneHot.chunk 14000#32 (View.ld x0 r0_15) v1)) (OneHot.chunk 15000#32 (View.ld x0 r0_16) v1)) (OneHot.chunk 16000#32 (View.ld x0 r0_17) v1)) (OneHot.chunk 17000#32 (View.ld x0 r0_18) v1)) (OneHot.chunk 18000#32 (View.ld x0 r0_19) v1)) (OneHot.chunk 19000#32 (View.ld x0 r0_20) v1)

/-- The scores the body hands to its last step: the log-sigmoid chain of the difference of the accumulator's halves. -/
private theorem pay16_eq (x0 : Vec Ideal S1x200x20000 .f32) (x1 : Vec Ideal S1x1x400 .i32) :
    k0_pay16 (k0_pay2 (View.ld x1 r0_0)) (k0_pay13 (k0_pay2 (View.ld x1 r0_0)) (k0_pay11 (k0_pay2 (View.ld x1 r0_0)) (k0_pay10 (k0_pay2 (View.ld x1 r0_0)) (k0_pay9 (k0_pay2 (View.ld x1 r0_0)) (k0_pay6 (k0_pay2 (View.ld x1 r0_0)) (k0_pay3 (View.ld x1 r0_0) (View.ld x0 r0_1) (View.ld x0 r0_2)) (k0_pay4 (View.ld x0 r0_3)) (k0_pay5 (View.ld x1 r0_0)) (View.ld x0 r0_4) (View.ld x0 r0_5)) (k0_pay7 (View.ld x0 r0_6)) (k0_pay8 (F := Ideal) (k0_pay2 (View.ld x1 r0_0))) (constant S200x400 .f32 0x00000000#32) (View.ld x0 r0_7) (View.ld x0 r0_8) (View.ld x0 r0_9)) (View.ld x0 r0_10) (View.ld x0 r0_11) (View.ld x0 r0_12)) (View.ld x0 r0_13) (View.ld x0 r0_14) (View.ld x0 r0_15)) (k0_pay12 (View.ld x0 r0_16)) (iota .tc S1000x1 32 [0] Facts₀.iota_S1000x1_d0_w32) (View.ld x0 r0_17) (View.ld x0 r0_18)) (k0_pay14 (View.ld x0 r0_19)) k0_pay15 (View.ld x0 r0_20)
      = Tail.lsChain (subf
          (extractStridedSlice S200x200 ![0, 0] (acc20 x0 (k0_pay2 (View.ld x1 r0_0))) Facts₀.slices_S200x400_o0_0_S200x200)
          (extractStridedSlice S200x200 ![0, 200] (acc20 x0 (k0_pay2 (View.ld x1 r0_0))) Facts₀.slices_S200x400_o0_200_S200x200)) := by
  rfl

/-- A slab's entry: a load through the unit rectangle at column offset s reads the row at s plus the column. -/
private theorem ld_slab (x0 : Vec Ideal S1x200x20000 .f32) (s : Nat) (hs : s + 1000 ≤ 20000)
    (inb : ∀ a, (![0, 0, s] : Fin 3 → Nat) a + S1x200x1000.size a ≤ S1x200x20000.size a) (i : Fin 200) (k : Fin 1000) :
    View.ld x0 (Rect.unit (s := S1x200x20000) ![0, 0, s] S1x200x1000.size inb) (ix3 0 i k)
      = x0 (ix3 0 i ⟨s + k.val, by have := k.isLt; omega⟩) := by
  show x0 _ = x0 _
  congr 1
  funext a
  match a with
  | ⟨0, _⟩ => exact Fin.ext (by show 0 + 1 * 0 = 0; omega)
  | ⟨1, _⟩ => exact Fin.ext (by show 0 + 1 * i.val = i.val; omega)
  | ⟨2, _⟩ => exact Fin.ext (by show s + 1 * k.val = s + k.val; omega)

/-- Slab c's share of a row's selection by the word w. -/
private def term (a : Fin 20000 → EReal) (w : BitVec 32) (c : Fin 20) : EReal :=
  ∑ k : Fin 1000, a ⟨1000 * c.val + k.val, by have := c.isLt; have := k.isLt; omega⟩
    * (if BitVec.ofNat 32 (1000 * c.val + k.val) = w then (1 : EReal) else 0)

/-- The twenty shares add up to the selected entry. -/
private theorem sum_term (a : Fin 20000 → EReal) (w : BitVec 32) : ∑ c : Fin 20, term a w c = Spec.selRow a w :=
  OneHot.sum_chunks a w

/-- Entry (i, j) of slab c's product is slab c's share of row i's selection by word j. -/
private theorem chunk_term (c : Fin 20) (x0 : Vec Ideal S1x200x20000 .f32) (v1 : IVec S1x400 32)
    (inb : ∀ a, (![0, 0, 1000 * c.val] : Fin 3 → Nat) a + S1x200x1000.size a ≤ S1x200x20000.size a)
    (i : Fin 200) (j : Fin 400) :
    OneHot.chunk (BitVec.ofNat 32 (1000 * c.val))
        (View.ld x0 (Rect.unit (s := S1x200x20000) ![0, 0, 1000 * c.val] S1x200x1000.size inb)) v1 (ix2 i j)
      = term (fun v => x0 (ix3 0 i v)) (v1 (ix2 0 j)) c := by
  have hc := c.isLt
  rw [OneHot.chunk_apply (1000 * c.val) (by omega)]
  unfold term
  refine Finset.sum_congr rfl fun k _ => ?_
  rw [ld_slab x0 (1000 * c.val) (by omega)]

/-- A sum over twenty positions, written out from the left as the body accumulates it. -/
private theorem sum_fin20 (f : Fin 20 → EReal) :
    ∑ c : Fin 20, f c = 0 + f ⟨0, by omega⟩ + f ⟨1, by omega⟩ + f ⟨2, by omega⟩ + f ⟨3, by omega⟩ + f ⟨4, by omega⟩ + f ⟨5, by omega⟩ + f ⟨6, by omega⟩ + f ⟨7, by omega⟩ + f ⟨8, by omega⟩ + f ⟨9, by omega⟩ + f ⟨10, by omega⟩ + f ⟨11, by omega⟩ + f ⟨12, by omega⟩ + f ⟨13, by omega⟩ + f ⟨14, by omega⟩ + f ⟨15, by omega⟩ + f ⟨16, by omega⟩ + f ⟨17, by omega⟩ + f ⟨18, by omega⟩ + f ⟨19, by omega⟩ := by
  simp only [Fin.sum_univ_castSucc, Fin.sum_univ_zero]
  rfl

/-- Entry (i, j) of the accumulator: the entry of row i that the index word j selects. -/
private theorem acc20_apply (x0 : Vec Ideal S1x200x20000 .f32) (v1 : IVec S1x400 32) (i : Fin 200) (j : Fin 400) :
    acc20 x0 v1 (ix2 i j) = Spec.selRow (fun v => x0 (ix3 0 i v)) (v1 (ix2 0 j)) := by
  have h0 : OneHot.chunk 0#32 (View.ld x0 r0_1) v1 (ix2 i j) = term (fun v => x0 (ix3 0 i v)) (v1 (ix2 0 j)) ⟨0, by omega⟩ :=
    chunk_term ⟨0, by omega⟩ x0 v1 Facts₀.inb_S1x200x20000_S1x200x1000_0_0_0 i j
  have h1 : OneHot.chunk 1000#32 (View.ld x0 r0_2) v1 (ix2 i j) = term (fun v => x0 (ix3 0 i v)) (v1 (ix2 0 j)) ⟨1, by omega⟩ :=
    chunk_term ⟨1, by omega⟩ x0 v1 Facts₀.inb_S1x200x20000_S1x200x1000_0_0_1000 i j
  have h2 : OneHot.chunk 2000#32 (View.ld x0 r0_3) v1 (ix2 i j) = term (fun v => x0 (ix3 0 i v)) (v1 (ix2 0 j)) ⟨2, by omega⟩ :=
    chunk_term ⟨2, by omega⟩ x0 v1 Facts₀.inb_S1x200x20000_S1x200x1000_0_0_2000 i j
  have h3 : OneHot.chunk 3000#32 (View.ld x0 r0_4) v1 (ix2 i j) = term (fun v => x0 (ix3 0 i v)) (v1 (ix2 0 j)) ⟨3, by omega⟩ :=
    chunk_term ⟨3, by omega⟩ x0 v1 Facts₀.inb_S1x200x20000_S1x200x1000_0_0_3000 i j
  have h4 : OneHot.chunk 4000#32 (View.ld x0 r0_5) v1 (ix2 i j) = term (fun v => x0 (ix3 0 i v)) (v1 (ix2 0 j)) ⟨4, by omega⟩ :=
    chunk_term ⟨4, by omega⟩ x0 v1 Facts₀.inb_S1x200x20000_S1x200x1000_0_0_4000 i j
  have h5 : OneHot.chunk 5000#32 (View.ld x0 r0_6) v1 (ix2 i j) = term (fun v => x0 (ix3 0 i v)) (v1 (ix2 0 j)) ⟨5, by omega⟩ :=
    chunk_term ⟨5, by omega⟩ x0 v1 Facts₀.inb_S1x200x20000_S1x200x1000_0_0_5000 i j
  have h6 : OneHot.chunk 6000#32 (View.ld x0 r0_7) v1 (ix2 i j) = term (fun v => x0 (ix3 0 i v)) (v1 (ix2 0 j)) ⟨6, by omega⟩ :=
    chunk_term ⟨6, by omega⟩ x0 v1 Facts₀.inb_S1x200x20000_S1x200x1000_0_0_6000 i j
  have h7 : OneHot.chunk 7000#32 (View.ld x0 r0_8) v1 (ix2 i j) = term (fun v => x0 (ix3 0 i v)) (v1 (ix2 0 j)) ⟨7, by omega⟩ :=
    chunk_term ⟨7, by omega⟩ x0 v1 Facts₀.inb_S1x200x20000_S1x200x1000_0_0_7000 i j
  have h8 : OneHot.chunk 8000#32 (View.ld x0 r0_9) v1 (ix2 i j) = term (fun v => x0 (ix3 0 i v)) (v1 (ix2 0 j)) ⟨8, by omega⟩ :=
    chunk_term ⟨8, by omega⟩ x0 v1 Facts₀.inb_S1x200x20000_S1x200x1000_0_0_8000 i j
  have h9 : OneHot.chunk 9000#32 (View.ld x0 r0_10) v1 (ix2 i j) = term (fun v => x0 (ix3 0 i v)) (v1 (ix2 0 j)) ⟨9, by omega⟩ :=
    chunk_term ⟨9, by omega⟩ x0 v1 Facts₀.inb_S1x200x20000_S1x200x1000_0_0_9000 i j
  have h10 : OneHot.chunk 10000#32 (View.ld x0 r0_11) v1 (ix2 i j) = term (fun v => x0 (ix3 0 i v)) (v1 (ix2 0 j)) ⟨10, by omega⟩ :=
    chunk_term ⟨10, by omega⟩ x0 v1 Facts₀.inb_S1x200x20000_S1x200x1000_0_0_10000 i j
  have h11 : OneHot.chunk 11000#32 (View.ld x0 r0_12) v1 (ix2 i j) = term (fun v => x0 (ix3 0 i v)) (v1 (ix2 0 j)) ⟨11, by omega⟩ :=
    chunk_term ⟨11, by omega⟩ x0 v1 Facts₀.inb_S1x200x20000_S1x200x1000_0_0_11000 i j
  have h12 : OneHot.chunk 12000#32 (View.ld x0 r0_13) v1 (ix2 i j) = term (fun v => x0 (ix3 0 i v)) (v1 (ix2 0 j)) ⟨12, by omega⟩ :=
    chunk_term ⟨12, by omega⟩ x0 v1 Facts₀.inb_S1x200x20000_S1x200x1000_0_0_12000 i j
  have h13 : OneHot.chunk 13000#32 (View.ld x0 r0_14) v1 (ix2 i j) = term (fun v => x0 (ix3 0 i v)) (v1 (ix2 0 j)) ⟨13, by omega⟩ :=
    chunk_term ⟨13, by omega⟩ x0 v1 Facts₀.inb_S1x200x20000_S1x200x1000_0_0_13000 i j
  have h14 : OneHot.chunk 14000#32 (View.ld x0 r0_15) v1 (ix2 i j) = term (fun v => x0 (ix3 0 i v)) (v1 (ix2 0 j)) ⟨14, by omega⟩ :=
    chunk_term ⟨14, by omega⟩ x0 v1 Facts₀.inb_S1x200x20000_S1x200x1000_0_0_14000 i j
  have h15 : OneHot.chunk 15000#32 (View.ld x0 r0_16) v1 (ix2 i j) = term (fun v => x0 (ix3 0 i v)) (v1 (ix2 0 j)) ⟨15, by omega⟩ :=
    chunk_term ⟨15, by omega⟩ x0 v1 Facts₀.inb_S1x200x20000_S1x200x1000_0_0_15000 i j
  have h16 : OneHot.chunk 16000#32 (View.ld x0 r0_17) v1 (ix2 i j) = term (fun v => x0 (ix3 0 i v)) (v1 (ix2 0 j)) ⟨16, by omega⟩ :=
    chunk_term ⟨16, by omega⟩ x0 v1 Facts₀.inb_S1x200x20000_S1x200x1000_0_0_16000 i j
  have h17 : OneHot.chunk 17000#32 (View.ld x0 r0_18) v1 (ix2 i j) = term (fun v => x0 (ix3 0 i v)) (v1 (ix2 0 j)) ⟨17, by omega⟩ :=
    chunk_term ⟨17, by omega⟩ x0 v1 Facts₀.inb_S1x200x20000_S1x200x1000_0_0_17000 i j
  have h18 : OneHot.chunk 18000#32 (View.ld x0 r0_19) v1 (ix2 i j) = term (fun v => x0 (ix3 0 i v)) (v1 (ix2 0 j)) ⟨18, by omega⟩ :=
    chunk_term ⟨18, by omega⟩ x0 v1 Facts₀.inb_S1x200x20000_S1x200x1000_0_0_18000 i j
  have h19 : OneHot.chunk 19000#32 (View.ld x0 r0_20) v1 (ix2 i j) = term (fun v => x0 (ix3 0 i v)) (v1 (ix2 0 j)) ⟨19, by omega⟩ :=
    chunk_term ⟨19, by omega⟩ x0 v1 Facts₀.inb_S1x200x20000_S1x200x1000_0_0_19000 i j
  have hzero : broadcast S200x400 (Scalar.ofBits (F := Ideal) .f32 0x00000000#32) (ix2 i j) = (0 : EReal) := Spec.zeroF
  unfold acc20
  simp only [addf_apply]
  rw [h0, h1, h2, h3, h4, h5, h6, h7, h8, h9, h10, h11, h12, h13, h14, h15, h16, h17, h18, h19, hzero, ← sum_term, sum_fin20]

/-- The left half of the accumulator: columns 0 to 199. -/
private theorem sliceL_apply (a : FVec Ideal S200x400 .f32) (i j : Fin 200) :
    extractStridedSlice S200x200 ![0, 0] a Facts₀.slices_S200x400_o0_0_S200x200 (ix2 i j)
      = a (ix2 i ⟨j.val, by have := j.isLt; omega⟩) :=
  extractStridedSlice_apply _ _ _ _ _ fun b => match b with
    | ⟨0, _⟩ => by show i.val = 0 + i.val; omega
    | ⟨1, _⟩ => by show j.val = 0 + j.val; omega

/-- The right half of the accumulator: columns 200 to 399. -/
private theorem sliceR_apply (a : FVec Ideal S200x400 .f32) (i j : Fin 200) :
    extractStridedSlice S200x200 ![0, 200] a Facts₀.slices_S200x400_o0_200_S200x200 (ix2 i j)
      = a (ix2 i ⟨200 + j.val, by have := j.isLt; omega⟩) :=
  extractStridedSlice_apply _ _ _ _ _ fun b => match b with
    | ⟨0, _⟩ => by show i.val = 0 + i.val; omega
    | ⟨1, _⟩ => by show 200 + j.val = 200 + j.val; omega

/-- Every lane of the output block is the sample's value of the staged rows, index words and length word. -/
theorem out_eq (x0 : Vec Ideal S1x200x20000 .f32) (x1 : Vec Ideal S1x1x400 .i32) (x2 : Vec Ideal S1x1x1 .i32)
    (y : S1x1x128.Idx) :
    out0_3 x0 x1 x2 y
      = Spec.sampleVal (fun i v => x0 (ix3 0 i v)) (fun j => x1 (ix3 0 0 ⟨j.val, by have := j.isLt; omega⟩))
          (fun j => x1 (ix3 0 0 ⟨200 + j.val, by have := j.isLt; omega⟩)) (x2 (ix3 0 0 0)) := by
  unfold out0_3
  rw [View.canon_unit_zero (S := S1x1x128) hz3]
  rw [Tail.pay1_apply, pay17_apply, pay16_eq]
  unfold Spec.sampleVal
  congr 2
  refine Finset.sum_congr rfl fun i _ => Finset.sum_congr rfl fun j _ => ?_
  unfold Spec.pairTerm
  rw [Tail.lsChain_apply, subf_apply, sliceL_apply, sliceR_apply, acc20_apply, acc20_apply, pay2_apply, pay2_apply]

end Cert.KernelIdeal.Body

end
-- ==== Proof.Prefix.lean ====
/-
  The index and length arrays as the region finds them.

  Before the region the host lays the label words and the negative words of a sample side by side in one row of 400
  words (a reshape of the negatives to [64, 200], a concatenation along the second axis, a reshape to [64, 1, 400]), and
  the length words as [64, 1, 1]. Read at an index: word j < 200 of row b is label (b, j), word 200 + j is negative
  (b, j, 0), and the one word of row b of the lengths is length b.
-/
import proofs.«408047_j78417512891010_1_alg».proof.KernelIdeal
import proofs.«408047_j78417512891010_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Prefix

open Idealize.ShloMosaic Idealize.ShloMosaic.TcCoe Idealize.ShloMosaic.ValueIdx Idealize.SL.Sem Cert.KernelIdeal Cert.KernelIdeal.Gen
open Cert.KernelIdeal.Facts₀ Cert.KernelIdeal.Facts

variable (m : (ℓ : Loc nD τ sig) → Buf (Elt Ideal) ℓ)

/-- The index array as the host operations' term: the concatenation of the label words with the reshaped negative
    words, reshaped to one row per sample. -/
private theorem V2_eq (c : Dev nD) :
    (V m c main_v2 : S64x1x400.Idx → BitVec 32)
      = shapeCast S64x1x400 (concatenate S64x400 1 [⟨S64x200, (m ((c : Thread nD τ).loc main_arg1) : S64x200.Idx → BitVec 32)⟩,
          ⟨S64x200, shapeCast S64x200 (m ((c : Thread nD τ).loc main_arg4) : S64x200x1.Idx → BitVec 32) Gen.shapeCasts_S64x200x1_S64x200⟩]
          Gen.concatenates_S64x200_S64x200_S64x400_d1) Gen.shapeCasts_S64x400_S64x1x400 := by
  dsimp only [Gen.V, Gen.V0]
  simp only [Gen.hostOps0, List.flatten_cons, List.flatten_nil, List.append_nil, List.cons_append, List.nil_append]
  after_results
  rfl

/-- The length array as the host operation's term: the length words reshaped. -/
private theorem V3_eq (c : Dev nD) :
    (V m c main_v3 : S64x1x1.Idx → BitVec 32)
      = shapeCast S64x1x1 (m ((c : Thread nD τ).loc main_arg2) : S64.Idx → BitVec 32) Gen.shapeCasts_S64_S64x1x1 := by
  dsimp only [Gen.V, Gen.V0]
  simp only [Gen.hostOps0, List.flatten_cons, List.flatten_nil, List.append_nil, List.cons_append, List.nil_append]
  after_results
  rfl

/-- Word `j < 200` of row `b` of the index array is label `(b, j)`. -/
theorem V_idx_lab (c : Dev nD) (b : Fin 64) (j : Fin 200) :
    (V m c main_v2 : S64x1x400.Idx → BitVec 32) (ix3 b 0 ⟨j.val, by have := j.isLt; omega⟩)
      = ((m ((c : Thread nD τ).loc main_arg1)) : S64x200.Idx → BitVec 32) (ix2 b j) := by
  have hj : j.val < 400 := by have := j.isLt; omega
  rw [V2_eq]
  rw [shapeCast_apply _ Gen.shapeCasts_S64x400_S64x1x400 (ix3 b (0 : Fin 1) (⟨j.val, hj⟩ : Fin 400)) (ix2 b (⟨j.val, hj⟩ : Fin 400)) (by
    rw [Shape.rowMajor_val_two, Shape.rowMajor_val_three]
    show b.val * 400 + j.val = (b.val * 1 + 0) * 400 + j.val
    omega)]
  exact concatenate_pair_apply_left (t := S64x400) (s₁ := S64x200) (s₂ := S64x200) (1 : Fin 2) _ _
    Gen.concatenates_S64x200_S64x200_S64x400_d1 (ix2 b (⟨j.val, hj⟩ : Fin 400)) rfl (ix2 b j : S64x200.Idx)
    (fun a => match a with | ⟨0, _⟩ => rfl | ⟨1, _⟩ => rfl)

/-- Word `200 + j` of row `b` of the index array is negative `(b, j, 0)`. -/
theorem V_idx_neg (c : Dev nD) (b : Fin 64) (j : Fin 200) :
    (V m c main_v2 : S64x1x400.Idx → BitVec 32) (ix3 b 0 ⟨200 + j.val, by have := j.isLt; omega⟩)
      = ((m ((c : Thread nD τ).loc main_arg4)) : S64x200x1.Idx → BitVec 32) (ix3 b j 0) := by
  have hj : 200 + j.val < 400 := by have := j.isLt; omega
  rw [V2_eq]
  rw [shapeCast_apply _ Gen.shapeCasts_S64x400_S64x1x400 (ix3 b (0 : Fin 1) (⟨200 + j.val, hj⟩ : Fin 400)) (ix2 b (⟨200 + j.val, hj⟩ : Fin 400)) (by
    rw [Shape.rowMajor_val_two, Shape.rowMajor_val_three]
    show b.val * 400 + (200 + j.val) = (b.val * 1 + 0) * 400 + (200 + j.val)
    omega)]
  rw [concatenate_pair_apply_right (t := S64x400) (s₁ := S64x200) (s₂ := S64x200) (1 : Fin 2) _ _
    Gen.concatenates_S64x200_S64x200_S64x400_d1 (ix2 b (⟨200 + j.val, hj⟩ : Fin 400)) rfl rfl (ix2 b j : S64x200.Idx)
    (fun a => match a with | ⟨0, _⟩ => fun _ => rfl | ⟨1, _⟩ => fun h => absurd rfl h)
    (by show j.val + 200 = 200 + j.val; omega)]
  exact shapeCast_apply _ Gen.shapeCasts_S64x200x1_S64x200 (ix2 b j) (ix3 b j (0 : Fin 1)) (by
    rw [Shape.rowMajor_val_two, Shape.rowMajor_val_three]
    show (b.val * 200 + j.val) * 1 + 0 = b.val * 200 + j.val
    omega)

/-- The one word of row `b` of the length array is length `b`. -/
theorem V_len (c : Dev nD) (b : Fin 64) :
    (V m c main_v3 : S64x1x1.Idx → BitVec 32) (ix3 b 0 0) = ((m ((c : Thread nD τ).loc main_arg2)) : S64.Idx → BitVec 32) (ix1 b) := by
  rw [V3_eq]
  exact shapeCast_apply _ Gen.shapeCasts_S64_S64x1x1 (ix3 b (0 : Fin 1) (0 : Fin 1)) (ix1 b) (by
    rw [Shape.rowMajor_val_one, Shape.rowMajor_val_three]
    show b.val = (b.val * 1 + 0) * 1 + 0
    omega)

end Cert.KernelIdeal.Prefix

end
-- ==== Proof.Blocks.lean ====
/-
  From the blocks to the output array.

  Grid point t stages sample t's slab of rows, its row of index words and its length word, and writes back one block of
  128 lanes, each the sample's value; the 64 blocks tile the [64, 1, 128] output. So entry (b, 0, l) of the output
  array after the region is sample b's value of the argument arrays.
-/
import proofs.«408047_j78417512891010_1_alg».proof.KernelIdeal
import proofs.«408047_j78417512891010_1_alg».proof.Proof.Gen.KernelIdeal.Frame
import proofs.«408047_j78417512891010_1_alg».proof.Proof.Spec
import proofs.«408047_j78417512891010_1_alg».proof.Proof.Body
import proofs.«408047_j78417512891010_1_alg».proof.Proof.Prefix
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem Cert.KernelIdeal Cert.KernelIdeal.Gen
open Cert.KernelIdeal.Facts₀ Cert.KernelIdeal.Facts

variable (m : (ℓ : Loc nD τ sig) → Buf (Elt Ideal) ℓ)

/-- The printed index maps over the grid: every window's block at point t is block (t, 0, 0) of its array. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

private theorem lt64 (t : Fin cfg0.N) : t.val < 64 := by
  have h := t.isLt; have hN : cfg0.N = 64 := N_0; omega

/-- Row block t of the score array: entry (0, i, v) of the block is entry (t, i, v) of the array. -/
private theorem iblk0_apply (c : Dev nD) (t : Fin cfg0.N) (i : Fin 200) (v : Fin 20000) :
    (iblk m c 0 t : S1x200x20000.Idx → EReal) (ix3 0 i v)
      = (m ((c : Thread nD τ).loc main_arg0) : S64x200x20000.Idx → EReal) (ix3 ⟨t.val, lt64 t⟩ i v) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * 0 = t.val; omega
  | ⟨1, _⟩ => show win0_0.index t (1 : Fin 3) * 200 + 1 * i.val = i.val; omega
  | ⟨2, _⟩ => show win0_0.index t (2 : Fin 3) * 20000 + 1 * v.val = v.val; omega

/-- Row t of the index-word array as the region finds it. -/
private theorem iblk1_apply (c : Dev nD) (t : Fin cfg0.N) (k : Fin 400) :
    (iblk m c 1 t : S1x1x400.Idx → BitVec 32) (ix3 0 0 k)
      = (V m c main_v2 : S64x1x400.Idx → BitVec 32) (ix3 ⟨t.val, lt64 t⟩ 0 k) := by
  obtain ⟨-, -, -, e0, e1, e2, -⟩ := idx_facts t
  unfold iblk
  rw [View.read_apply]
  show V m c main_v2 _ = _
  congr 1
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 400 + 1 * k.val = k.val; omega

/-- Row t of the length-word array as the region finds it. -/
private theorem iblk2_apply (c : Dev nD) (t : Fin cfg0.N) :
    (iblk m c 2 t : S1x1x1.Idx → BitVec 32) (ix3 0 0 0)
      = (V m c main_v3 : S64x1x1.Idx → BitVec 32) (ix3 ⟨t.val, lt64 t⟩ 0 0) := by
  obtain ⟨-, -, -, -, -, -, e0, e1, e2, -⟩ := idx_facts t
  unfold iblk
  rw [View.read_apply]
  show V m c main_v3 _ = _
  congr 1
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 1 + 1 * 0 = 0; omega

/-- The output array: every lane of row b holds sample b's value of the argument arrays. -/
private abbrev G3 (c : Dev nD) : S64x1x128.Idx → EReal := fun y =>
  Spec.sampleOf (m ((c : Thread nD τ).loc main_arg0)) (m ((c : Thread nD τ).loc main_arg1)) (m ((c : Thread nD τ).loc main_arg2))
    (m ((c : Thread nD τ).loc main_arg4)) ⟨(y 0).val, (y 0).isLt⟩

/-- The sample's value of the three blocks staged at point t is sample t's value of the argument arrays. -/
private theorem sample_at (c : Dev nD) (t : Fin cfg0.N) (b : Fin 64) (hb : b.val = t.val) :
    Spec.sampleVal (fun i v => (iblk m c 0 t : S1x200x20000.Idx → EReal) (ix3 0 i v))
        (fun j => (iblk m c 1 t : S1x1x400.Idx → BitVec 32) (ix3 0 0 ⟨j.val, by have := j.isLt; omega⟩))
        (fun j => (iblk m c 1 t : S1x1x400.Idx → BitVec 32) (ix3 0 0 ⟨200 + j.val, by have := j.isLt; omega⟩))
        ((iblk m c 2 t : S1x1x1.Idx → BitVec 32) (ix3 0 0 0))
      = Spec.sampleOf (m ((c : Thread nD τ).loc main_arg0)) (m ((c : Thread nD τ).loc main_arg1)) (m ((c : Thread nD τ).loc main_arg2))
          (m ((c : Thread nD τ).loc main_arg4)) b := by
  obtain rfl : b = ⟨t.val, lt64 t⟩ := Fin.ext hb
  unfold Spec.sampleOf
  refine congr (congr (congr (congrArg Spec.sampleVal ?_) ?_) ?_) ?_
  · funext i v; exact iblk0_apply m c t i v
  · funext j; exact (iblk1_apply m c t _).trans (Prefix.V_idx_lab m c _ j)
  · funext j; exact (iblk1_apply m c t _).trans (Prefix.V_idx_neg m c _ j)
  · exact (iblk2_apply m c t).trans (Prefix.V_len m c _)

/-- What point t writes back is block t of the array of the samples' values. -/
private theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  funext j
  rw [View.read_apply]
  show out0_3 (iblk m c 0 t) (iblk m c 1 t) (iblk m c 2 t) j = G3 m c (((cfg0.win 3).blk t).view.emb j)
  rw [Body.out_eq]
  refine sample_at m c t _ ?_
  obtain ⟨-, -, -, -, -, -, -, -, -, e0, -⟩ := idx_facts t
  have hj : (j 0).val < 1 := (j 0).isLt
  show win0_3.index t (0 : Fin 3) * 1 + 1 * (j 0).val = t.val
  omega

/-- An index of the array is in point t's block iff each coordinate is in the block's range on its axis. -/
private theorem mem_blk3 (t : Fin cfg0.N) (i : S64x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v4).slice (win0_3.rect t)).set ↔ _
  rw [View.set_slice_whole, Rect.mem_set_unit]
  exact Iff.rfl

/-- Every index of the array lies in the block of the point its first coordinate names. -/
private theorem cover3 (y : S64x1x128.Idx) :
    ∃ t : Fin cfg0.N, (cfg0.win 3).flush t = true ∧ y ∈ ((cfg0.win 3).blk t).view.set := by
  have h0 : (y 0).val < 64 := (y 0).isLt
  have h1 : (y 1).val < 1 := (y 1).isLt
  have h2 : (y 2).val < 128 := (y 2).isLt
  have hN : cfg0.N = 64 := N_0
  obtain ⟨t, ht⟩ : ∃ t : Fin cfg0.N, t.val = (y 0).val := ⟨⟨(y 0).val, by omega⟩, rfl⟩
  refine ⟨t, flush0_3 t, ?_⟩
  rw [mem_blk3]
  obtain ⟨-, -, -, -, -, -, -, -, -, e0, e1, e2⟩ := idx_facts t
  intro a
  match a with
  | ⟨0, _⟩ => show win0_3.index t (0 : Fin 3) * 1 ≤ (y 0).val ∧ (y 0).val < win0_3.index t (0 : Fin 3) * 1 + 1; omega
  | ⟨1, _⟩ => show win0_3.index t (1 : Fin 3) * 1 ≤ (y 1).val ∧ (y 1).val < win0_3.index t (1 : Fin 3) * 1 + 1; omega
  | ⟨2, _⟩ => show win0_3.index t (2 : Fin 3) * 128 ≤ (y 2).val ∧ (y 2).val < win0_3.index t (2 : Fin 3) * 128 + 128; omega

/-- The output array after the region, entry by entry: the value of the entry's sample. -/
theorem final3 (c : Dev nD) (y : S64x1x128.Idx) :
    ((dats m 0 c).arrAt 3 cfg0.N : S64x1x128.Idx → EReal) y
      = Spec.sampleOf (m ((c : Thread nD τ).loc main_arg0)) (m ((c : Thread nD τ).loc main_arg1)) (m ((c : Thread nD τ).loc main_arg2)) (m ((c : Thread nD τ).loc main_arg4)) ⟨(y 0).val, (y 0).isLt⟩ := by
  have h := (dats m 0 c).arrAt_eq_of_cover 3 (G3 m c) (fun t _ => flushed3_eq m c t) cover3
  exact congrFun h y

end Cert.KernelIdeal.Blocks

end
-- ==== Proof.KernelRun.lean ====
/-
  The idealized kernel program's run, with its result named.

  After the region the host takes lane 0 of every sample's block, sums the 64 numbers from zero and lays the sum out as a
  one-element array: the sum of the samples' values.
-/
import proofs.«408047_j78417512891010_1_alg».proof.KernelIdeal
import proofs.«408047_j78417512891010_1_alg».proof.Proof.Gen.KernelIdeal.Frame
import proofs.«408047_j78417512891010_1_alg».proof.Proof.Spec
import proofs.«408047_j78417512891010_1_alg».proof.Proof.Blocks
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.RunValue

open Idealize.ShloMosaic Idealize.ShloMosaic.TcCoe Idealize.ShloMosaic.ValueIdx Idealize.SL.Sem Cert.KernelIdeal Cert.KernelIdeal.Gen
open Cert.KernelIdeal.Facts₀ Cert.KernelIdeal.Facts

variable (m : (ℓ : Loc nD τ sig) → Buf (Elt Ideal) ℓ) (ρ : Dev nD → PrngReg)

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's operations after the region, read at the result's one index: the sum over the samples of lane 0 of each
    sample's block. -/
private theorem tail_apply (A : S64x1x128.Idx → EReal)
    (hs : S64x1x128.Slices ![0, 0, 0] S64x1x1) (hc : S64x1x1.ShapeCasts S64)
    (hr : S64.ReducesTo [0] S_) (hu : 0 < S_.numel) (hb : S_.BroadcastsInDim S1 (![] : Fin 0 → Fin S1.rank)) (j : S1.Idx) :
    broadcastInDim S1 ![] hb
      (Host.reduceAdd (F := Ideal) (φ := .f32) (shapeCast S64 (extractStridedSlice S64x1x1 ![0, 0, 0] A hs) hc)
        (constant (F := Ideal) S_ .f32 0x00000000#32) hr hu) j
      = ∑ b : Fin 64, A (ix3 b 0 0) := by
  rw [broadcastInDim_apply (![] : Fin 0 → Fin S1.rank) hb _ j (Shape.Idx.first hu) (fun a => a.elim0)]
  show Ideal.hostReduceAdd hr _ (constant (F := Ideal) S_ .f32 0x00000000#32 (Shape.Idx.first hu)) _ = _
  rw [Ideal.hostReduceAdd_total hr (fun b => b.elim0), constant_apply, Spec.zeroF, zero_add, sum_idx1]
  refine Finset.sum_congr rfl fun b _ => ?_
  rw [shapeCast_apply _ hc (ix1 b) (ix3 b 0 0) (by rw [Shape.rowMajor_val_three, Shape.rowMajor_val_one]; simp),
    extractStridedSlice_apply _ _ hs (ix3 b 0 0) (ix3 b 0 0) (fun a => by
      match a with
      | ⟨0, _⟩ => exact (Nat.zero_add _).symm
      | ⟨1, _⟩ => exact (Nat.zero_add _).symm
      | ⟨2, _⟩ => exact (Nat.zero_add _).symm)]

/-- Every weakly fair execution of the program ends with the result at the sum of the samples' values and the arguments
    unchanged. -/
theorem run : θ_run (defs (F := Ideal)) (onTc (τ := τ) (main (F := Ideal))) ⟨m, fun _ => 0, ρ⟩ fun r => ∀ c : Dev nD,
      r.2.mem ((c.tc : Thread nD τ).loc main_v8)
        = Spec.G (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  -- the five arguments: the staged one is its array as the region found it, the others are written by no operation
  refine ⟨?_, ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩
  -- the result: the operations after the region applied to the region's output array
  rw [(h c).2 main_v8 (Pipeline.mem_restRefs_of main_v8 (by decide) (by decide))]
  unfold Pipeline.afterTail₀
  show StableHlo.after hostOps1 _ (Proc.devRef .tc main_v8) = _
  after_results
  funext j
  -- at its one index: the sum over the samples b of the output array at (b, 0, 0) …
  refine (tail_apply _ _ _ _ _ _ j).trans ?_
  show ∑ b : Fin 64, _ = ∑ b : Fin 64, _
  refine Finset.sum_congr rfl fun b _ => ?_
  -- … and the output array's entry at (b, 0, 0) is sample b's value
  refine (congrFun (Pipeline.withArrays_arr spec0 launch0.win.arr_inj c (V0 m c) _ 3) (ix3 b 0 0)).trans ?_
  exact Blocks.final3 m c (ix3 b 0 0)

end Cert.KernelIdeal.RunValue

end
-- ==== Proof.RefTerm.lean ====
/-
  The reference program's result as ONE pure term of its argument arrays: each host operation of the program, in the
  program's order, applied to the values before it (the three functions the program calls are written once each, as the
  program writes them).

  `takeAlong` is the selection along the last axis by an index array: an index below zero is first raised by the
  extent 20000; entry `(b, i, j)` of the result is the gathered entry of row `(b, i)` at the index `(b, 0, j)` when that
  index lies in `[0, 19999]`, and the pattern `0x7FC00000` otherwise. `softplus` and `logSigmoid` are the pointwise
  chains `max z 0 + log1p (exp (−|z|))` (behind a test of `z − 0` against itself) and `−softplus (−d)`.
-/
import proofs.«408047_j78417512891010_1_alg».proof.ReferenceIdeal
import proofs.«408047_j78417512891010_1_alg».proof.Proof.Gen.ReferenceIdeal

noncomputable section

namespace Cert.ReferenceIdeal.Term

open Idealize.ShloMosaic Cert.ReferenceIdeal
open Cert.ReferenceIdeal.Facts₀ Cert.ReferenceIdeal.Facts

variable {F : FTy → Type} [FloatOps F]

/-- The program's `take_along_axis` as one function of the array and the index array. -/
def takeAlong (a0 : FVec F S64x200x20000 .f32) (a1 : IVec S64x1x200 32) : FVec F S64x200x200 .f32 :=
  let v0 : IVec S64x1x200 32 := broadcastInDim S64x1x200 ![] bcast_S_S64x1x200 (constantI S_ 32 0#32)
  let v1 : IVec S64x1x200 1 := cmpi .slt a1 v0
  let v2 : IVec S64x1x200 32 := broadcastInDim S64x1x200 ![] bcast_S_S64x1x200 (constantI S_ 32 20000#32)
  let v3 : IVec S64x1x200 32 := addi a1 v2
  let v4 : IVec S64x1x200 32 := select v1 v3 a1
  let v5 : IVec S64x200x1 32 := shapeCast S64x200x1 v4 shapeCasts_S64x1x200_S64x200x1
  let v6 : IVec S64x200x1 32 := broadcastInDim S64x200x1 ![] bcast_S_S64x200x1 (constantI S_ 32 0#32)
  let v7 : IVec S64x200x1 1 := cmpi .sge v5 v6
  let v8 : IVec S1x1x1 32 := broadcastInDim S1x1x1 ![2] bcast_S1_S1x1x1_2 (constantI S1 32 19999#32)
  let v9 : IVec S64x200x1 32 := broadcastInDim S64x200x1 ![0, 1, 2] bcast_S1x1x1_S64x200x1_0_1_2 v8
  let v10 : IVec S64x200x1 1 := cmpi .sle v5 v9
  let v11 : IVec S64x200x1 1 := andi v7 v10
  let v12 : IVec S64x200 1 := Host.reduce IntOp.andi v11 (constantI S_ 1 1#1) reducesTo_S64x200x1_S64x200_d2 h_S_
  let v13 : FVec F S64x200x200 .f32 := Host.gather gather_S64x200x20000_S64x200x1_S64x200x200_1_2_0_0_2_2_12001 a0 v5
  let v14 : IVec S64x200x200 1 := broadcastInDim S64x200x200 ![0, 2] bcast_S64x200_S64x200x200_0_2 v12
  let v15 : FVec F S64x200x200 .f32 := broadcastInDim S64x200x200 ![] bcast_S_S64x200x200 (constant S_ .f32 0x7FC00000#32)
  select v14 v13 v15

/-- The program's `softplus`. -/
def softplus (x : FVec F S64x200x200x1 .f32) : FVec F S64x200x200x1 .f32 :=
  let z : FVec F S64x200x200x1 .f32 := broadcastInDim S64x200x200x1 ![] bcast_S_S64x200x200x1 (constant S_ .f32 0x00000000#32)
  let v1 : FVec F S64x200x200x1 .f32 := maximumf x z
  let v3 : FVec F S64x200x200x1 .f32 := subf x z
  let v4 : IVec S64x200x200x1 1 := cmpf .une v3 v3
  let v6 : FVec F S64x200x200x1 .f32 := addf x z
  let v7 : FVec F S64x200x200x1 .f32 := Host.absf v3
  let v8 : FVec F S64x200x200x1 .f32 := Host.negf v7
  let v9 : FVec F S64x200x200x1 .f32 := Host.exp v8
  let v10 : FVec F S64x200x200x1 .f32 := Host.log1p v9
  let v11 : FVec F S64x200x200x1 .f32 := addf v1 v10
  select v4 v6 v11

/-- The program's `log_sigmoid`. -/
def logSigmoid (x : FVec F S64x200x200x1 .f32) : FVec F S64x200x200x1 .f32 :=
  Host.negf (softplus (Host.negf x))

/-- @main's result as one term of its arguments. -/
def result (a0 : FVec F S64x200x20000 .f32) (a1 : IVec S64x200 32) (a2 : IVec S64 32) (a4 : IVec S64x200x1 32) : FVec F S1 .f32 :=
  let v0 : IVec S64x1x200 32 := broadcastInDim S64x1x200 ![0, 2] bcast_S64x200_S64x1x200_0_2 a1
  let v1 : FVec F S64x200x200 .f32 := takeAlong a0 v0
  let v2 : IVec S64x1x200 32 := shapeCast S64x1x200 a4 shapeCasts_S64x200x1_S64x1x200
  let v3 : FVec F S64x200x200 .f32 := takeAlong a0 v2
  let v4 : FVec F S64x200x200x1 .f32 := shapeCast S64x200x200x1 v3 shapeCasts_S64x200x200_S64x200x200x1
  let v5 : FVec F S64x200x200x1 .f32 := broadcastInDim S64x200x200x1 ![0, 1, 2] bcast_S64x200x200_S64x200x200x1_0_1_2 v1
  let v6 : FVec F S64x200x200x1 .f32 := subf v5 v4
  let v7 : FVec F S64x200x200x1 .f32 := logSigmoid v6
  let v8 : IVec S200 32 := iotaInDim S200 32 0
  let v9 : IVec S1x200 32 := broadcastInDim S1x200 ![1] bcast_S200_S1x200_1 v8
  let v10 : IVec S64x1 32 := broadcastInDim S64x1 ![0] bcast_S64_S64x1_0 a2
  let v11 : IVec S64x200 32 := broadcastInDim S64x200 ![0, 1] bcast_S1x200_S64x200_0_1 v9
  let v12 : IVec S64x200 32 := broadcastInDim S64x200 ![0, 1] bcast_S64x1_S64x200_0_1 v10
  let v13 : IVec S64x200 1 := cmpi .slt v11 v12
  let v14 : IVec S64x200x1 1 := broadcastInDim S64x200x1 ![0, 1] bcast_S64x200_S64x200x1_0_1 v13
  let v15 : IVec S64x1x200 1 := broadcastInDim S64x1x200 ![0, 2] bcast_S64x200_S64x1x200_0_2 v13
  let v16 : IVec S64x200x200 1 := broadcastInDim S64x200x200 ![0, 1, 2] bcast_S64x200x1_S64x200x200_0_1_2 v14
  let v17 : IVec S64x200x200 1 := broadcastInDim S64x200x200 ![0, 1, 2] bcast_S64x1x200_S64x200x200_0_1_2 v15
  let v18 : IVec S64x200x200 1 := andi v16 v17
  let v19 : FVec F S64x200x200 .f32 := uitofp .f32 v18
  let v20 : FVec F S64x200x200x1 .f32 := broadcastInDim S64x200x200x1 ![0, 1, 2] bcast_S64x200x200_S64x200x200x1_0_1_2 v19
  let v21 : FVec F S64 .f32 := sitofp .f32 a2
  let v22 : FVec F S64 .f32 := mulf v21 v21
  let v23 : FVec F S64 .f32 := broadcastInDim S64 ![] bcast_S_S64 (constant S_ .f32 0x3F800000#32)
  let v24 : FVec F S64 .f32 := mulf v22 v23
  let v25 : FVec F S64x200x200x1 .f32 := mulf v7 v20
  let v26 : FVec F S64 .f32 := Host.reduceAdd v25 (constant S_ .f32 0x00000000#32) reducesTo_S64x200x200x1_S64_d1_2_3 h_S_
  let v27 : FVec F S64 .f32 := Host.negf v26
  let v28 : FVec F S64 .f32 := Host.divf v27 v24
  let v29 : FVec F S_ .f32 := Host.reduceAdd v28 (constant S_ .f32 0x00000000#32) reducesTo_S64_S_d0 h_S_
  broadcastInDim S1 ![] bcast_S_S1 v29

end Cert.ReferenceIdeal.Term

end
-- ==== Proof.RefRun.lean ====
/-
  The idealized reference program's run: @main as the list of its host operations (the three called functions' operations
  in place, over each call's own buffers), and the run read back — every weakly fair execution ends with the result at
  the operations' composed term of the arguments, the arguments unchanged.
-/
import proofs.«408047_j78417512891010_1_alg».proof.ReferenceIdeal
import proofs.«408047_j78417512891010_1_alg».proof.Proof.Gen.ReferenceIdeal
import proofs.«408047_j78417512891010_1_alg».proof.Proof.RefTerm
import Idealize.ShloMosaic.Lib.StableHlo.Run
import Idealize.ShloMosaic.Lib.ValueIdx

set_option maxRecDepth 16384

noncomputable section

open scoped BigOperators

namespace Cert.ReferenceIdeal.RefRun

open Idealize.ShloMosaic Idealize.ShloMosaic.TcCoe Idealize.ShloMosaic.ValueIdx Idealize.SL.Sem Cert.ReferenceIdeal
open Cert.ReferenceIdeal.Facts₀ Cert.ReferenceIdeal.Facts
open Idealize.ShloMosaic.StableHlo

variable {F : FTy → Type} [FloatOps F]

/-- @main's ninety-three operations in order, the calls unfolded: the index array's broadcast; the twenty-four of
    `take_along_axis` over the first call's buffers; the second index array's reshape and the same twenty-four over the
    second call's; the reshape, broadcast and difference; `log_sigmoid`'s sixteen (a negation, `softplus`'s fourteen,
    a negation); then @main's own twenty-four: the length mask, the squared length, the masked sum, its negation and
    quotient, the sum over the batch and its broadcast. -/
abbrev ops : List (HloOp τ sig (Elt F)) :=
  [ unary main_arg1 main_v0 (broadcastInDim S64x1x200 ![0, 2] bcast_S64x200_S64x1x200_0_2 : (⟨S64x200, .i32⟩ : BufTy).Contents (Elt F) → (⟨S64x1x200, .i32⟩ : BufTy).Contents (Elt F)),
    TRef.nullary main_call0.c (constantI S_ 32 0#32),
    TRef.unary main_call0.c main_call0.v0 (broadcastInDim S64x1x200 ![] bcast_S_S64x1x200),
    TRef.binary (.of main_v0 : TRef sig ⟨S64x1x200, .i32⟩) main_call0.v0 main_call0.v1 (cmpi .slt),
    TRef.nullary main_call0.c_0 (constantI S_ 32 20000#32),
    TRef.unary main_call0.c_0 main_call0.v2 (broadcastInDim S64x1x200 ![] bcast_S_S64x1x200),
    TRef.binary (.of main_v0 : TRef sig ⟨S64x1x200, .i32⟩) main_call0.v2 main_call0.v3 addi,
    TRef.ternary main_call0.v1 main_call0.v3 (.of main_v0 : TRef sig ⟨S64x1x200, .i32⟩) main_call0.v4 select,
    TRef.reshape main_call0.v4 main_call0.v5 rfl shapeCasts_S64x1x200_S64x200x1,
    TRef.nullary main_call0.c_1 (constantI S1 32 19999#32),
    TRef.nullary main_call0.c_2 (constantI S_ 32 0#32),
    TRef.unary main_call0.c_2 main_call0.v6 (broadcastInDim S64x200x1 ![] bcast_S_S64x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S64x200x1 ![0, 1, 2] bcast_S1x1x1_S64x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x200x1_S64x200_d2 h_S_),
    TRef.binary (.of main_arg0 : TRef sig ⟨S64x200x20000, .f32⟩) main_call0.v5 main_call0.v13 (fun x i => Host.gather gather_S64x200x20000_S64x200x1_S64x200x200_1_2_0_0_2_2_12001 x i),
    TRef.unary main_call0.v12 main_call0.v14 (broadcastInDim S64x200x200 ![0, 2] bcast_S64x200_S64x200x200_0_2),
    TRef.nullary main_call0.cst (constant S_ .f32 0x7FC00000#32),
    TRef.unary main_call0.cst main_call0.v15 (broadcastInDim S64x200x200 ![] bcast_S_S64x200x200),
    TRef.ternary main_call0.v14 main_call0.v13 main_call0.v15 main_call0.v16 select,
    reshape main_arg4 main_v2 rfl shapeCasts_S64x200x1_S64x1x200,
    TRef.nullary main_call1.c (constantI S_ 32 0#32),
    TRef.unary main_call1.c main_call1.v0 (broadcastInDim S64x1x200 ![] bcast_S_S64x1x200),
    TRef.binary (.of main_v2 : TRef sig ⟨S64x1x200, .i32⟩) main_call1.v0 main_call1.v1 (cmpi .slt),
    TRef.nullary main_call1.c_0 (constantI S_ 32 20000#32),
    TRef.unary main_call1.c_0 main_call1.v2 (broadcastInDim S64x1x200 ![] bcast_S_S64x1x200),
    TRef.binary (.of main_v2 : TRef sig ⟨S64x1x200, .i32⟩) main_call1.v2 main_call1.v3 addi,
    TRef.ternary main_call1.v1 main_call1.v3 (.of main_v2 : TRef sig ⟨S64x1x200, .i32⟩) main_call1.v4 select,
    TRef.reshape main_call1.v4 main_call1.v5 rfl shapeCasts_S64x1x200_S64x200x1,
    TRef.nullary main_call1.c_1 (constantI S1 32 19999#32),
    TRef.nullary main_call1.c_2 (constantI S_ 32 0#32),
    TRef.unary main_call1.c_2 main_call1.v6 (broadcastInDim S64x200x1 ![] bcast_S_S64x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S64x200x1 ![0, 1, 2] bcast_S1x1x1_S64x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S64x200x1_S64x200_d2 h_S_),
    TRef.binary (.of main_arg0 : TRef sig ⟨S64x200x20000, .f32⟩) main_call1.v5 main_call1.v13 (fun x i => Host.gather gather_S64x200x20000_S64x200x1_S64x200x200_1_2_0_0_2_2_12001 x i),
    TRef.unary main_call1.v12 main_call1.v14 (broadcastInDim S64x200x200 ![0, 2] bcast_S64x200_S64x200x200_0_2),
    TRef.nullary main_call1.cst (constant S_ .f32 0x7FC00000#32),
    TRef.unary main_call1.cst main_call1.v15 (broadcastInDim S64x200x200 ![] bcast_S_S64x200x200),
    TRef.ternary main_call1.v14 main_call1.v13 main_call1.v15 main_call1.v16 select,
    reshape main_v3 main_v4 rfl shapeCasts_S64x200x200_S64x200x200x1,
    unary main_v1 main_v5 (broadcastInDim S64x200x200x1 ![0, 1, 2] bcast_S64x200x200_S64x200x200x1_0_1_2 : (⟨S64x200x200, .f32⟩ : BufTy).Contents (Elt F) → (⟨S64x200x200x1, .f32⟩ : BufTy).Contents (Elt F)),
    binary main_v5 main_v4 main_v6 (subf : (⟨S64x200x200x1, .f32⟩ : BufTy).Contents (Elt F) → (⟨S64x200x200x1, .f32⟩ : BufTy).Contents (Elt F) → (⟨S64x200x200x1, .f32⟩ : BufTy).Contents (Elt F)),
    TRef.unary (.of main_v6 : TRef sig ⟨S64x200x200x1, .f32⟩) main_call2.v0 Host.negf,
    TRef.nullary main_call2.call0.cst (constant S_ .f32 0x00000000#32),
    TRef.unary main_call2.call0.cst main_call2.call0.v0 (broadcastInDim S64x200x200x1 ![] bcast_S_S64x200x200x1),
    TRef.binary main_call2.v0 main_call2.call0.v0 main_call2.call0.v1 maximumf,
    TRef.unary main_call2.call0.cst main_call2.call0.v2 (broadcastInDim S64x200x200x1 ![] bcast_S_S64x200x200x1),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S64x200x200x1 ![] bcast_S_S64x200x200x1),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    nullary main_v8 (iotaInDim S200 32 0),
    unary main_v8 main_v9 (broadcastInDim S1x200 ![1] bcast_S200_S1x200_1 : (⟨S200, .i32⟩ : BufTy).Contents (Elt F) → (⟨S1x200, .i32⟩ : BufTy).Contents (Elt F)),
    unary main_arg2 main_v10 (broadcastInDim S64x1 ![0] bcast_S64_S64x1_0 : (⟨S64, .i32⟩ : BufTy).Contents (Elt F) → (⟨S64x1, .i32⟩ : BufTy).Contents (Elt F)),
    unary main_v9 main_v11 (broadcastInDim S64x200 ![0, 1] bcast_S1x200_S64x200_0_1 : (⟨S1x200, .i32⟩ : BufTy).Contents (Elt F) → (⟨S64x200, .i32⟩ : BufTy).Contents (Elt F)),
    unary main_v10 main_v12 (broadcastInDim S64x200 ![0, 1] bcast_S64x1_S64x200_0_1 : (⟨S64x1, .i32⟩ : BufTy).Contents (Elt F) → (⟨S64x200, .i32⟩ : BufTy).Contents (Elt F)),
    binary main_v11 main_v12 main_v13 (cmpi .slt : (⟨S64x200, .i32⟩ : BufTy).Contents (Elt F) → (⟨S64x200, .i32⟩ : BufTy).Contents (Elt F) → (⟨S64x200, .i1⟩ : BufTy).Contents (Elt F)),
    unary main_v13 main_v14 (broadcastInDim S64x200x1 ![0, 1] bcast_S64x200_S64x200x1_0_1 : (⟨S64x200, .i1⟩ : BufTy).Contents (Elt F) → (⟨S64x200x1, .i1⟩ : BufTy).Contents (Elt F)),
    unary main_v13 main_v15 (broadcastInDim S64x1x200 ![0, 2] bcast_S64x200_S64x1x200_0_2 : (⟨S64x200, .i1⟩ : BufTy).Contents (Elt F) → (⟨S64x1x200, .i1⟩ : BufTy).Contents (Elt F)),
    unary main_v14 main_v16 (broadcastInDim S64x200x200 ![0, 1, 2] bcast_S64x200x1_S64x200x200_0_1_2 : (⟨S64x200x1, .i1⟩ : BufTy).Contents (Elt F) → (⟨S64x200x200, .i1⟩ : BufTy).Contents (Elt F)),
    unary main_v15 main_v17 (broadcastInDim S64x200x200 ![0, 1, 2] bcast_S64x1x200_S64x200x200_0_1_2 : (⟨S64x1x200, .i1⟩ : BufTy).Contents (Elt F) → (⟨S64x200x200, .i1⟩ : BufTy).Contents (Elt F)),
    binary main_v16 main_v17 main_v18 (andi : (⟨S64x200x200, .i1⟩ : BufTy).Contents (Elt F) → (⟨S64x200x200, .i1⟩ : BufTy).Contents (Elt F) → (⟨S64x200x200, .i1⟩ : BufTy).Contents (Elt F)),
    unary main_v18 main_v19 (uitofp .f32 : (⟨S64x200x200, .i1⟩ : BufTy).Contents (Elt F) → (⟨S64x200x200, .f32⟩ : BufTy).Contents (Elt F)),
    unary main_v19 main_v20 (broadcastInDim S64x200x200x1 ![0, 1, 2] bcast_S64x200x200_S64x200x200x1_0_1_2 : (⟨S64x200x200, .f32⟩ : BufTy).Contents (Elt F) → (⟨S64x200x200x1, .f32⟩ : BufTy).Contents (Elt F)),
    unary main_arg2 main_v21 (sitofp .f32 : (⟨S64, .i32⟩ : BufTy).Contents (Elt F) → (⟨S64, .f32⟩ : BufTy).Contents (Elt F)),
    binary main_v21 main_v21 main_v22 (mulf : (⟨S64, .f32⟩ : BufTy).Contents (Elt F) → (⟨S64, .f32⟩ : BufTy).Contents (Elt F) → (⟨S64, .f32⟩ : BufTy).Contents (Elt F)),
    nullary main_cst (constant S_ .f32 0x3F800000#32),
    unary main_cst main_v23 (broadcastInDim S64 ![] bcast_S_S64 : (⟨S_, .f32⟩ : BufTy).Contents (Elt F) → (⟨S64, .f32⟩ : BufTy).Contents (Elt F)),
    binary main_v22 main_v23 main_v24 (mulf : (⟨S64, .f32⟩ : BufTy).Contents (Elt F) → (⟨S64, .f32⟩ : BufTy).Contents (Elt F) → (⟨S64, .f32⟩ : BufTy).Contents (Elt F)),
    binary main_v7 main_v20 main_v25 (mulf : (⟨S64x200x200x1, .f32⟩ : BufTy).Contents (Elt F) → (⟨S64x200x200x1, .f32⟩ : BufTy).Contents (Elt F) → (⟨S64x200x200x1, .f32⟩ : BufTy).Contents (Elt F)),
    nullary main_cst_0 (constant S_ .f32 0x00000000#32),
    binary main_v25 main_cst_0 main_v26 ((fun x v => Host.reduceAdd x v reducesTo_S64x200x200x1_S64_d1_2_3 h_S_) : (⟨S64x200x200x1, .f32⟩ : BufTy).Contents (Elt F) → (⟨S_, .f32⟩ : BufTy).Contents (Elt F) → (⟨S64, .f32⟩ : BufTy).Contents (Elt F)),
    unary main_v26 main_v27 (Host.negf : (⟨S64, .f32⟩ : BufTy).Contents (Elt F) → (⟨S64, .f32⟩ : BufTy).Contents (Elt F)),
    binary main_v27 main_v24 main_v28 (Host.divf : (⟨S64, .f32⟩ : BufTy).Contents (Elt F) → (⟨S64, .f32⟩ : BufTy).Contents (Elt F) → (⟨S64, .f32⟩ : BufTy).Contents (Elt F)),
    nullary main_cst_1 (constant S_ .f32 0x00000000#32),
    binary main_v28 main_cst_1 main_v29 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v29 main_v30 (broadcastInDim S1 ![] bcast_S_S1 : (⟨S_, .f32⟩ : BufTy).Contents (Elt F) → (⟨S1, .f32⟩ : BufTy).Contents (Elt F)) ]

set_option maxHeartbeats 8000000 in
/-- @main is that straight line: the called functions' definitions unfolded at their calls, both sides are one chain of
    operation steps once sequencing is reassociated. -/
theorem main_eq (c : Dev nD) : main (F := F) c = seq ops := by
  simp only [main, fn_take_along_axis.body, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., nullary_bufs_sub .., unary_bufs_sub .., unary_bufs_sub .., unary_bufs_sub .., unary_bufs_sub ..,
    binary_bufs_sub .., unary_bufs_sub .., unary_bufs_sub .., unary_bufs_sub .., unary_bufs_sub .., binary_bufs_sub ..,
    unary_bufs_sub .., unary_bufs_sub .., unary_bufs_sub .., binary_bufs_sub .., nullary_bufs_sub .., unary_bufs_sub ..,
    binary_bufs_sub .., binary_bufs_sub .., nullary_bufs_sub .., binary_bufs_sub .., unary_bufs_sub .., binary_bufs_sub ..,
    nullary_bufs_sub .., binary_bufs_sub .., unary_bufs_sub ..⟩

set_option maxHeartbeats 40000000 in
/-- The fold of the operations at the result buffer is the composed term. -/
theorem result_eq (V : Valuation τ sig (Elt F)) :
    after ops V (main_v30 : DevRef τ sig)
      = Term.result (F := F) (V (main_arg0 : DevRef τ sig)) (V (main_arg1 : DevRef τ sig)) (V (main_arg2 : DevRef τ sig))
          (V (main_arg4 : DevRef τ sig)) := by
  after_results_simp
  rfl

set_option maxHeartbeats 40000000 in
/-- No operation writes an argument's buffer. -/
theorem arg0_eq (V : Valuation τ sig (Elt F)) : after ops V (main_arg0 : DevRef τ sig) = V (main_arg0 : DevRef τ sig) := by
  after_results_simp <;> rfl
set_option maxHeartbeats 40000000 in
theorem arg1_eq (V : Valuation τ sig (Elt F)) : after ops V (main_arg1 : DevRef τ sig) = V (main_arg1 : DevRef τ sig) := by
  after_results_simp <;> rfl
set_option maxHeartbeats 40000000 in
theorem arg2_eq (V : Valuation τ sig (Elt F)) : after ops V (main_arg2 : DevRef τ sig) = V (main_arg2 : DevRef τ sig) := by
  after_results_simp <;> rfl
set_option maxHeartbeats 40000000 in
theorem arg3_eq (V : Valuation τ sig (Elt F)) : after ops V (main_arg3 : DevRef τ sig) = V (main_arg3 : DevRef τ sig) := by
  after_results_simp <;> rfl
set_option maxHeartbeats 40000000 in
theorem arg4_eq (V : Valuation τ sig (Elt F)) : after ops V (main_arg4 : DevRef τ sig) = V (main_arg4 : DevRef τ sig) := by
  after_results_simp <;> rfl

/-- Every weakly fair execution of the program ends with the result at the composed term and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30)
        = Term.result (F := F) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (result_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefGather.lean ====
/-
  The reference's selection along the last axis, read at an index.

  For index words that are positions of a row (below 20000 as unsigned words, hence not negative as signed ones) the
  raising of negative indices does nothing, the range test passes, the gather reads row (b, i) at the word's value, and
  the fill pattern is never selected: entry (b, i, j) is the row's entry selected by word (b, 0, j).
-/
import proofs.«408047_j78417512891010_1_alg».proof.ReferenceIdeal
import proofs.«408047_j78417512891010_1_alg».proof.Proof.Gen.ReferenceIdeal
import proofs.«408047_j78417512891010_1_alg».proof.Proof.RefTerm
import proofs.«408047_j78417512891010_1_alg».proof.Proof.Spec
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate

set_option maxRecDepth 16384

noncomputable section

open scoped BigOperators

namespace Cert.ReferenceIdeal.RefGather

open Idealize.ShloMosaic Idealize.ShloMosaic.TcCoe Idealize.ShloMosaic.ValueIdx Idealize.SL.Sem Cert.ReferenceIdeal
open Cert.ReferenceIdeal.Facts₀ Cert.ReferenceIdeal.Facts

open Idealize.ShloMosaic.StableHlo.Predicate

/-- A left fold by the conjunction, from the bit 1, over bits that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

/-- Every index word is a position of a row: the middle coordinate of an index of the word array is 0. -/
private theorem word_lt (a1 : IVec S64x1x200 32) (h : ∀ (b : Fin 64) (j : Fin 200), (a1 (ix3 b 0 j)).toNat < 20000)
    (k : S64x1x200.Idx) : (a1 k).toNat < 20000 := by
  obtain ⟨p, q, r, rfl⟩ : ∃ (p : Fin 64) (q : Fin 1) (r : Fin 200), k = ix3 p q r := ⟨k 0, k 1, k 2, eq_ix3 k⟩
  obtain rfl : q = 0 := Subsingleton.elim _ _
  exact h p r

/-- For words that are positions of a row (so not negative as signed words) the raising of the negative words by the
    extent changes nothing. -/
private theorem raise_eq (a1 : IVec S64x1x200 32) (hall : ∀ k : S64x1x200.Idx, (a1 k).toNat < 20000) :
    select (cmpi .slt a1 (broadcastInDim S64x1x200 ![] bcast_S_S64x1x200 (constantI S_ 32 0#32)))
      (addi a1 (broadcastInDim S64x1x200 ![] bcast_S_S64x1x200 (constantI S_ 32 20000#32))) a1 = a1 := by
  funext k
  rw [select_apply]
  have hc : cmpi .slt a1 (broadcastInDim S64x1x200 ![] bcast_S_S64x1x200 (constantI S_ 32 0#32)) k = 0#1 := by
    refine eq_zero_of_ne_one fun e => ?_
    have e' : IntOp.cmpi .slt (a1 k) 0#32 = 1#1 := e
    have hk := hall k
    have := (slt_iff_toNat (a := a1 k) (b := 0#32) (by omega) (by decide)).1 e'
    simp at this
  rw [hc, select_zero]

/-- A word below 20000 passes the range test: it is at least 0 and at most 19999 as a signed word. -/
private theorem inRange (w : BitVec 32) (hw : w.toNat < 20000) :
    IntOp.andi (IntOp.cmpi .sge w 0#32) (IntOp.cmpi .sle w 19999#32) = 1#1 := by
  have h9 : (19999#32).toNat = 19999 := rfl
  have h0 : (0#32).toNat = 0 := rfl
  rw [IntOp.andi_eq_one]
  exact ⟨(sge_iff_toNat (by omega) (by decide)).2 (by omega), (sle_iff_toNat (by omega) (by decide)).2 (by omega)⟩

/-- The range test, reduced over the unit last axis by the conjunction from the bit 1, is 1 at every row position when
    every word is a position of a row. -/
private theorem test_eq (a1 : IVec S64x1x200 32) (hall : ∀ k : S64x1x200.Idx, (a1 k).toNat < 20000) (y : S64x200.Idx) :
    Host.reduce IntOp.andi
      (andi
        (cmpi .sge (shapeCast S64x200x1 a1 shapeCasts_S64x1x200_S64x200x1)
          (broadcastInDim S64x200x1 ![] bcast_S_S64x200x1 (constantI S_ 32 0#32)))
        (cmpi .sle (shapeCast S64x200x1 a1 shapeCasts_S64x1x200_S64x200x1)
          (broadcastInDim S64x200x1 ![0, 1, 2] bcast_S1x1x1_S64x200x1_0_1_2
            (broadcastInDim S1x1x1 ![2] bcast_S1_S1x1x1_2 (constantI S1 32 19999#32)))))
      (constantI S_ 1 1#1) reducesTo_S64x200x1_S64x200_d2 h_S_ y = 1#1 := by
  unfold Host.reduce
  exact foldl_andi_one _ (fun n => inRange _ (hall _)) _

local notation "gatherDims" => gather_S64x200x20000_S64x200x1_S64x200x200_1_2_0_0_2_2_12001

/-- The gather read at (b, i, j), for a start word at (b, j, 0) that is a position of a row: the operand's batch
    coordinate is b, its offset coordinate on the middle axis is i, and on the collapsed last axis the start is the
    word, read signed and clamped into [0, 19999], which changes nothing in that range. -/
private theorem gather_apply (a0 : FVec Ideal S64x200x20000 .f32) (idx : IVec S64x200x1 32) (b : Fin 64) (i j : Fin 200)
    (w : Fin 20000) (hw : (idx (ix3 b j 0)).toNat = w.val) :
    Host.gather gatherDims a0 idx (ix3 b i j) = a0 (ix3 b i w) := by
  unfold Host.gather
  congr 1
  funext a
  refine Fin.ext ?_
  match a with
  | ⟨0, _⟩ =>
    show GatherDims.start gatherDims (ix3 b i j) idx 0 + GatherDims.batchCoord gatherDims (ix3 b i j) 0 + GatherDims.offCoord gatherDims (ix3 b i j) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show GatherDims.start gatherDims (ix3 b i j) idx 1 + GatherDims.batchCoord gatherDims (ix3 b i j) 1 + GatherDims.offCoord gatherDims (ix3 b i j) 1 = i.val
    have hs : GatherDims.start gatherDims (ix3 b i j) idx 1 = 0 := by
      unfold GatherDims.start
      exact dif_neg (by decide)
    rw [hs, GatherDims.batchCoord_eq_zero _ _ _ (by decide)]
    simp only [Nat.zero_add, Nat.add_zero]
    rfl
  | ⟨2, _⟩ =>
    show GatherDims.start gatherDims (ix3 b i j) idx 2 + GatherDims.batchCoord gatherDims (ix3 b i j) 2 + GatherDims.offCoord gatherDims (ix3 b i j) 2
      = w.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (GatherDims.startIndexMap gatherDims) from List.mem_singleton.mpr rfl)]
    have hsi : GatherDims.siIdx gatherDims (ix3 b i j) ⟨List.idxOf (2 : Fin 3) (GatherDims.startIndexMap gatherDims),
        List.idxOf_lt_length_iff.2 (List.mem_singleton.mpr rfl)⟩ = ix3 b j 0 := by
      funext c; refine Fin.ext ?_
      match c with
      | ⟨0, _⟩ => rfl
      | ⟨1, _⟩ => rfl
      | ⟨2, _⟩ => rfl
    rw [hsi]
    show min (idx (ix3 b j 0)).toInt.toNat (20000 - 1) = w.val
    have hlt := w.isLt
    have ht : (idx (ix3 b j 0)).toInt.toNat = (idx (ix3 b j 0)).toNat := by
      rw [toInt_eq_toNat_of_lt (by omega)]
      exact Int.toNat_natCast _
    rw [ht, hw]
    exact Nat.min_eq_left (by omega)

/-- Entry (b, i, j) of the selection, for in-range index words. -/
theorem takeAlong_apply (a0 : FVec Ideal S64x200x20000 .f32) (a1 : IVec S64x1x200 32)
    (h : ∀ (b : Fin 64) (j : Fin 200), (a1 (ix3 b 0 j)).toNat < 20000) (b : Fin 64) (i j : Fin 200) :
    Term.takeAlong (F := Ideal) a0 a1 (ix3 b i j) = Spec.selRow (fun v => a0 (ix3 b i v)) (a1 (ix3 b 0 j)) := by
  have hall := word_lt a1 h
  unfold Term.takeAlong
  dsimp only
  rw [raise_eq a1 hall, select_apply]
  have hc : broadcastInDim S64x200x200 ![0, 2] bcast_S64x200_S64x200x200_0_2
      (Host.reduce IntOp.andi
        (andi
          (cmpi .sge (shapeCast S64x200x1 a1 shapeCasts_S64x1x200_S64x200x1)
            (broadcastInDim S64x200x1 ![] bcast_S_S64x200x1 (constantI S_ 32 0#32)))
          (cmpi .sle (shapeCast S64x200x1 a1 shapeCasts_S64x1x200_S64x200x1)
            (broadcastInDim S64x200x1 ![0, 1, 2] bcast_S1x1x1_S64x200x1_0_1_2
              (broadcastInDim S1x1x1 ![2] bcast_S1_S1x1x1_2 (constantI S1 32 19999#32)))))
        (constantI S_ 1 1#1) reducesTo_S64x200x1_S64x200_d2 h_S_) (ix3 b i j) = 1#1 := by
    unfold broadcastInDim
    exact test_eq a1 hall _
  rw [hc, select_one]
  have h5 : shapeCast S64x200x1 a1 shapeCasts_S64x1x200_S64x200x1 (ix3 b j 0) = a1 (ix3 b 0 j) := by
    refine shapeCast_apply a1 _ _ _ ?_
    rw [Shape.rowMajor_val_three, Shape.rowMajor_val_three]
    show (b.val * 1 + 0) * 200 + j.val = (b.val * 200 + j.val) * 1 + 0
    omega
  rw [gather_apply a0 _ b i j ⟨(a1 (ix3 b 0 j)).toNat, h b j⟩ (congrArg BitVec.toNat h5), Spec.selRow_of_lt _ _ (h b j)]

end Cert.ReferenceIdeal.RefGather

end
-- ==== Proof.RefStages.lean ====
/-
  Three stages of the reference read at an index: the pointwise log-sigmoid, the sum over the three inner axes of a
  [64, 200, 200, 1] array (at sample b: the double sum over rows and columns), and the sum of a [64] array.
-/
import proofs.«408047_j78417512891010_1_alg».proof.ReferenceIdeal
import proofs.«408047_j78417512891010_1_alg».proof.Proof.Gen.ReferenceIdeal
import proofs.«408047_j78417512891010_1_alg».proof.Proof.RefTerm
import proofs.«408047_j78417512891010_1_alg».proof.Proof.Spec
import Idealize.ShloMosaic.Lib.ValueIdx
import Idealize.ShloMosaic.PureOps.Ideal.Laws

set_option maxRecDepth 16384

noncomputable section

open scoped BigOperators

namespace Cert.ReferenceIdeal.RefStages

open Idealize.ShloMosaic Idealize.ShloMosaic.TcCoe Idealize.ShloMosaic.ValueIdx Idealize.SL.Sem Cert.ReferenceIdeal
open Cert.ReferenceIdeal.Facts₀ Cert.ReferenceIdeal.Facts

/-- The zero constant spread over the array reads zero everywhere. -/
private theorem zero_bcast (y : S64x200x200x1.Idx) :
    broadcastInDim S64x200x200x1 ![] bcast_S_S64x200x200x1 (constant (F := Ideal) S_ .f32 0x00000000#32) y = 0 :=
  Spec.zeroF

/-- Pointwise the reference's softplus chain is `max z 0 + log1p (exp (−|z|))`: the test of `z − 0` against itself
    never holds at the extended reals, so the second branch of the selection is taken. -/
private theorem softplus_apply (x : FVec Ideal S64x200x200x1 .f32) (y : S64x200x200x1.Idx) :
    Term.softplus (F := Ideal) x y = Spec.softplus (x y) := by
  unfold Term.softplus
  simp only [select_apply, cmpf_apply]
  rw [Ideal.cmpf_def, Spec.cmp_une_self, select_zero]
  show max (x y) (broadcastInDim S64x200x200x1 ![] bcast_S_S64x200x200x1 (constant (F := Ideal) S_ .f32 0x00000000#32) y)
      + Ideal.log1p (Ideal.exp (-(max
          (x y - broadcastInDim S64x200x200x1 ![] bcast_S_S64x200x200x1 (constant (F := Ideal) S_ .f32 0x00000000#32) y)
          (-(x y - broadcastInDim S64x200x200x1 ![] bcast_S_S64x200x200x1 (constant (F := Ideal) S_ .f32 0x00000000#32) y)))))
    = Spec.softplus (x y)
  rw [zero_bcast y, sub_zero]
  rfl

/-- Pointwise the reference's chain is the log-sigmoid. -/
theorem logSigmoid_apply (x : FVec Ideal S64x200x200x1 .f32) (y : S64x200x200x1.Idx) :
    Term.logSigmoid (F := Ideal) x y = Spec.logSigmoid (x y) := by
  show -(Term.softplus (F := Ideal) (Host.negf x) y) = Spec.logSigmoid (x y)
  rw [softplus_apply]
  rfl

/-- A rank-1 index set is its one coordinate's range. -/
private def idxEquiv1 {n : Nat} : (⟨1, ![n]⟩ : Shape).Idx ≃ Fin n where
  toFun i := i 0
  invFun a := ix1 a
  left_inv i := (eq_ix1 i).symm
  right_inv _ := rfl

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Dropping the three inner coordinates of an index leaves its sample coordinate. -/
private theorem drop_ix4 (a : Fin 64) (i j : Fin 200) (k : Fin 1) :
    reducesTo_S64x200x200x1_S64_d1_2_3.drop (ix4 a i j k) = ix1 a := by
  funext d
  match d with
  | ⟨0, _⟩ => exact Fin.ext (Shape.ReducesTo.drop_apply_val_of_eq _ (ix4 a i j k) 0 0)

/-- The host sum over axes 1, 2, 3 from zero, at sample b: the double sum over rows and columns. The indices that
    drop to sample b are exactly those whose first coordinate is b; the sum over all indices with the others'
    terms replaced by zero is split along the four coordinates, the first is fixed at b, and the last has one value. -/
theorem reduce123 (x : FVec Ideal S64x200x200x1 .f32) (b : Fin 64) :
    Host.reduceAdd x (constant S_ .f32 0x00000000#32) reducesTo_S64x200x200x1_S64_d1_2_3 h_S_ (ix1 b)
      = ∑ i : Fin 200, ∑ j : Fin 200, x (ix4 b i j 0) := by
  show Ideal.hostReduceAdd reducesTo_S64x200x200x1_S64_d1_2_3 x (Ideal.ofBits .f32 0x00000000#32) (ix1 b) = _
  unfold Ideal.hostReduceAdd
  rw [Spec.zeroF, zero_add, Finset.sum_filter, sum_idx4]
  have hcond : ∀ (a : Fin 64) (i j : Fin 200) (k : Fin 1),
      (if reducesTo_S64x200x200x1_S64_d1_2_3.drop (ix4 a i j k) = ix1 b then x (ix4 a i j k) else 0)
        = if a = b then x (ix4 a i j k) else 0 := by
    intro a i j k
    rw [drop_ix4]
    by_cases h : a = b
    · rw [if_pos h, if_pos (congrArg ix1 h)]
    · rw [if_neg h, if_neg (fun h' => h (congrFun h' 0))]
  simp only [hcond]
  rw [Finset.sum_eq_single b]
  · refine Finset.sum_congr rfl fun i _ => Finset.sum_congr rfl fun j _ => ?_
    rw [Fin.sum_univ_one, if_pos rfl]
  · intro a _ hab
    simp only [if_neg hab, Finset.sum_const_zero]
  · intro h
    exact absurd (Finset.mem_univ b) h

/-- The host sum of a [64] array from zero. -/
theorem reduce0 (x : FVec Ideal S64 .f32) :
    Host.reduceAdd x (constant S_ .f32 0x00000000#32) reducesTo_S64_S_d0 h_S_ ix0 = ∑ b : Fin 64, x (ix1 b) := by
  show Ideal.hostReduceAdd reducesTo_S64_S_d0 x (Ideal.ofBits .f32 0x00000000#32) ix0 = _
  rw [Ideal.hostReduceAdd_total reducesTo_S64_S_d0 (fun b => b.elim0), Spec.zeroF, zero_add]
  exact (Equiv.sum_comp (idxEquiv1 (n := 64)).symm x).symm

end Cert.ReferenceIdeal.RefStages

end
-- ==== Proof.RefValue.lean ====
/-
  The reference's composed term is the specification, for in-range index words.

  Both selections read the rows at the label and negative words; the difference goes through the log-sigmoid; the mask is
  the 0/1 number of "row below the length and column below the length"; the sum over the inner axes is the double sum;
  the quotient by the length squared times one and the sum over the samples are the specification's.
-/
import proofs.«408047_j78417512891010_1_alg».proof.ReferenceIdeal
import proofs.«408047_j78417512891010_1_alg».proof.Proof.Gen.ReferenceIdeal
import proofs.«408047_j78417512891010_1_alg».proof.Proof.RefTerm
import proofs.«408047_j78417512891010_1_alg».proof.Proof.Spec
import proofs.«408047_j78417512891010_1_alg».proof.Proof.RefGather
import proofs.«408047_j78417512891010_1_alg».proof.Proof.RefStages
import Idealize.ShloMosaic.Lib.ValueIdx
import Idealize.ShloMosaic.Lib.Pipeline.Value
import Idealize.ShloMosaic.Lib.ValueLayout

set_option maxRecDepth 16384

noncomputable section

open scoped BigOperators

namespace Cert.ReferenceIdeal.RefValue

open Idealize.ShloMosaic Idealize.ShloMosaic.TcCoe Idealize.ShloMosaic.ValueIdx Idealize.SL.Sem Cert.ReferenceIdeal
open Cert.ReferenceIdeal.Facts₀ Cert.ReferenceIdeal.Facts

/-! ## Re-indexings read at an index -/

/-- A scalar broadcast to any shape reads the scalar everywhere. -/
private theorem scalar_read {T : Shape} {α : Type} (h : S_.BroadcastsInDim T ![]) (x : S_.Idx → α) (j : T.Idx) :
    broadcastInDim T ![] h x j = x ix0 := by
  unfold broadcastInDim; exact congrArg x (funext fun a => a.elim0)

/-- A [64, 200] array placed on axes 0 and 2 of [64, 1, 200]: entry (b, 0, j) is entry (b, j). -/
private theorem mid_read {α : Type} (x : S64x200.Idx → α) (b : Fin 64) (j : Fin 200) :
    broadcastInDim S64x1x200 ![0, 2] bcast_S64x200_S64x1x200_0_2 x (ix3 b 0 j) = x (ix2 b j) :=
  broadcastInDim_apply _ _ x _ (ix2 b j) (fun a => by
    match a with
    | ⟨0, _⟩ => rfl
    | ⟨1, _⟩ => rfl)

/-- A [64, 200, 1] array recast to [64, 1, 200]: entry (b, 0, j) is entry (b, j, 0). -/
private theorem neg_read {α : Type} (x : S64x200x1.Idx → α) (b : Fin 64) (j : Fin 200) :
    shapeCast S64x1x200 x shapeCasts_S64x200x1_S64x1x200 (ix3 b 0 j) = x (ix3 b j 0) :=
  shapeCast_apply x _ _ (ix3 b j 0) (by
    rw [Shape.rowMajor_val_three, Shape.rowMajor_val_three]
    show (b.val * 200 + j.val) * 1 + 0 = (b.val * 1 + 0) * 200 + j.val
    omega)

/-- A [64, 200, 200] array recast to [64, 200, 200, 1]: entry (b, i, j, 0) is entry (b, i, j). -/
private theorem cast4_read {α : Type} (x : S64x200x200.Idx → α) (b : Fin 64) (i j : Fin 200) :
    shapeCast S64x200x200x1 x shapeCasts_S64x200x200_S64x200x200x1 (ix4 b i j 0) = x (ix3 b i j) :=
  shapeCast_apply x _ _ (ix3 b i j) (by
    rw [Shape.rowMajor_val_three, Shape.rowMajor_val_four]
    show (b.val * 200 + i.val) * 200 + j.val = ((b.val * 200 + i.val) * 200 + j.val) * 1 + 0
    omega)

/-- A [64, 200, 200] array broadcast to [64, 200, 200, 1] along its own axes: entry (b, i, j, 0) is entry (b, i, j). -/
private theorem bc4_read {α : Type} (x : S64x200x200.Idx → α) (b : Fin 64) (i j : Fin 200) :
    broadcastInDim S64x200x200x1 ![0, 1, 2] bcast_S64x200x200_S64x200x200x1_0_1_2 x (ix4 b i j 0) = x (ix3 b i j) :=
  broadcastInDim_apply _ _ x _ (ix3 b i j) (fun a => by
    match a with
    | ⟨0, _⟩ => rfl
    | ⟨1, _⟩ => rfl
    | ⟨2, _⟩ => rfl)

/-- A [64, 200] array sent down the columns of [64, 200, 200]: entry (b, i, j) is entry (b, i). -/
private theorem row_read {α : Type} (x : S64x200.Idx → α) (b : Fin 64) (i j : Fin 200) :
    broadcastInDim S64x200x200 ![0, 1, 2] bcast_S64x200x1_S64x200x200_0_1_2
      (broadcastInDim S64x200x1 ![0, 1] bcast_S64x200_S64x200x1_0_1 x) (ix3 b i j) = x (ix2 b i) := by
  rw [broadcastInDim_apply _ _ _ (ix3 b i j) (ix3 b i (0 : Fin 1)) (fun a => by
    match a with
    | ⟨0, _⟩ => rfl
    | ⟨1, _⟩ => rfl
    | ⟨2, _⟩ => rfl)]
  exact broadcastInDim_apply _ _ x _ (ix2 b i) (fun a => by
    match a with
    | ⟨0, _⟩ => rfl
    | ⟨1, _⟩ => rfl)

/-- A [64, 200] array sent along the rows of [64, 200, 200]: entry (b, i, j) is entry (b, j). -/
private theorem col_read {α : Type} (x : S64x200.Idx → α) (b : Fin 64) (i j : Fin 200) :
    broadcastInDim S64x200x200 ![0, 1, 2] bcast_S64x1x200_S64x200x200_0_1_2
      (broadcastInDim S64x1x200 ![0, 2] bcast_S64x200_S64x1x200_0_2 x) (ix3 b i j) = x (ix2 b j) := by
  rw [broadcastInDim_apply _ _ _ (ix3 b i j) (ix3 b (0 : Fin 1) j) (fun a => by
    match a with
    | ⟨0, _⟩ => rfl
    | ⟨1, _⟩ => rfl
    | ⟨2, _⟩ => rfl)]
  exact mid_read x b j

/-! ## The stages of the term -/

/-- The test "position below the sample's length" over [64, 200]. -/
private def below (lens : IVec S64 32) : IVec S64x200 1 :=
  cmpi .slt
    (broadcastInDim S64x200 ![0, 1] bcast_S1x200_S64x200_0_1
      (broadcastInDim S1x200 ![1] bcast_S200_S1x200_1 (iotaInDim S200 32 0)))
    (broadcastInDim S64x200 ![0, 1] bcast_S64x1_S64x200_0_1 (broadcastInDim S64x1 ![0] bcast_S64_S64x1_0 lens))

private theorem below_apply (lens : IVec S64 32) (b : Fin 64) (k : Fin 200) :
    below lens (ix2 b k) = IntOp.cmpi .slt (BitVec.ofNat 32 k.val) (lens (ix1 b)) := by
  have e1 : broadcastInDim S64x200 ![0, 1] bcast_S1x200_S64x200_0_1
      (broadcastInDim S1x200 ![1] bcast_S200_S1x200_1 (iotaInDim S200 32 0)) (ix2 b k) = BitVec.ofNat 32 k.val := by
    rw [broadcastInDim_apply _ _ _ (ix2 b k) (ix2 (0 : Fin 1) k) (fun a => by
      match a with
      | ⟨0, _⟩ => rfl
      | ⟨1, _⟩ => rfl)]
    rw [broadcastInDim_apply _ _ _ (ix2 (0 : Fin 1) k) (ix1 k) (fun a => by
      match a with
      | ⟨0, _⟩ => rfl)]
    rfl
  have e2 : broadcastInDim S64x200 ![0, 1] bcast_S64x1_S64x200_0_1
      (broadcastInDim S64x1 ![0] bcast_S64_S64x1_0 lens) (ix2 b k) = lens (ix1 b) := by
    rw [broadcastInDim_apply _ _ _ (ix2 b k) (ix2 b (0 : Fin 1)) (fun a => by
      match a with
      | ⟨0, _⟩ => rfl
      | ⟨1, _⟩ => rfl)]
    exact broadcastInDim_apply _ _ lens _ (ix1 b) (fun a => by
      match a with
      | ⟨0, _⟩ => rfl)
  show IntOp.cmpi .slt _ _ = _
  rw [e1, e2]

/-- The 0/1 mask over [64, 200, 200, 1]. -/
private def maskArr (lens : IVec S64 32) : FVec Ideal S64x200x200x1 .f32 :=
  broadcastInDim S64x200x200x1 ![0, 1, 2] bcast_S64x200x200_S64x200x200x1_0_1_2
    (uitofp .f32
      (andi
        (broadcastInDim S64x200x200 ![0, 1, 2] bcast_S64x200x1_S64x200x200_0_1_2
          (broadcastInDim S64x200x1 ![0, 1] bcast_S64x200_S64x200x1_0_1 (below lens)))
        (broadcastInDim S64x200x200 ![0, 1, 2] bcast_S64x1x200_S64x200x200_0_1_2
          (broadcastInDim S64x1x200 ![0, 2] bcast_S64x200_S64x1x200_0_2 (below lens)))))

private theorem maskArr_apply (lens : IVec S64 32) (b : Fin 64) (i j : Fin 200) :
    maskArr lens (ix4 b i j 0) = Spec.vmask (lens (ix1 b)) i j := by
  unfold maskArr
  rw [bc4_read]
  simp only [uitofp, andi]
  rw [row_read, col_read, below_apply, below_apply]
  rfl

/-- The difference of the two selections over [64, 200, 200, 1]. -/
private def diffArr (o : FVec Ideal S64x200x20000 .f32) (lab : IVec S64x200 32) (neg : IVec S64x200x1 32) :
    FVec Ideal S64x200x200x1 .f32 :=
  subf
    (broadcastInDim S64x200x200x1 ![0, 1, 2] bcast_S64x200x200_S64x200x200x1_0_1_2
      (Term.takeAlong o (broadcastInDim S64x1x200 ![0, 2] bcast_S64x200_S64x1x200_0_2 lab)))
    (shapeCast S64x200x200x1 (Term.takeAlong o (shapeCast S64x1x200 neg shapeCasts_S64x200x1_S64x1x200))
      shapeCasts_S64x200x200_S64x200x200x1)

private theorem diffArr_apply (o : FVec Ideal S64x200x20000 .f32) (lab : IVec S64x200 32) (neg : IVec S64x200x1 32)
    (hl : ∀ (b : Fin 64) (j : Fin 200), (lab (ix2 b j)).toNat < 20000)
    (hn : ∀ (b : Fin 64) (j : Fin 200), (neg (ix3 b j 0)).toNat < 20000) (b : Fin 64) (i j : Fin 200) :
    diffArr o lab neg (ix4 b i j 0)
      = Spec.selRow (fun v => o (ix3 b i v)) (lab (ix2 b j)) - Spec.selRow (fun v => o (ix3 b i v)) (neg (ix3 b j 0)) := by
  unfold diffArr
  rw [subf_apply, bc4_read, cast4_read,
    RefGather.takeAlong_apply o _ (fun b j => by rw [mid_read]; exact hl b j),
    RefGather.takeAlong_apply o _ (fun b j => by rw [neg_read]; exact hn b j), mid_read, neg_read]

/-- The divisor over [64]: the length squared, times one. -/
private def denomArr (lens : IVec S64 32) : FVec Ideal S64 .f32 :=
  mulf (mulf (sitofp .f32 lens) (sitofp .f32 lens)) (broadcastInDim S64 ![] bcast_S_S64 (constant S_ .f32 0x3F800000#32))

private theorem denomArr_apply (lens : IVec S64 32) (b : Fin 64) :
    denomArr lens (ix1 b) = Spec.lenF (lens (ix1 b)) * Spec.lenF (lens (ix1 b)) * Spec.oneF := by
  unfold denomArr
  rw [mulf_apply, mulf_apply, scalar_read]
  rfl

/-- The term, with its stages named. -/
private theorem result_unfold (o : FVec Ideal S64x200x20000 .f32) (lab : IVec S64x200 32) (lens : IVec S64 32)
    (neg : IVec S64x200x1 32) :
    Term.result (F := Ideal) o lab lens neg
      = broadcastInDim S1 ![] bcast_S_S1
          (Host.reduceAdd
            (Host.divf
              (Host.negf
                (Host.reduceAdd (mulf (Term.logSigmoid (diffArr o lab neg)) (maskArr lens))
                  (constant S_ .f32 0x00000000#32) reducesTo_S64x200x200x1_S64_d1_2_3 h_S_))
              (denomArr lens))
            (constant S_ .f32 0x00000000#32) reducesTo_S64_S_d0 h_S_) := rfl

/-- The reference's term of the arguments is the specification of them. -/
theorem result_eq (o : FVec Ideal S64x200x20000 .f32) (lab : IVec S64x200 32) (lens : IVec S64 32) (neg : IVec S64x200x1 32)
    (hl : ∀ (b : Fin 64) (j : Fin 200), (lab (ix2 b j)).toNat < 20000)
    (hn : ∀ (b : Fin 64) (j : Fin 200), (neg (ix3 b j 0)).toNat < 20000) :
    Term.result (F := Ideal) o lab lens neg = Spec.G o lab lens neg := by
  funext y
  rw [result_unfold, scalar_read, RefStages.reduce0]
  unfold Spec.G
  refine Finset.sum_congr rfl (fun b _ => ?_)
  show Ideal.div
      (-(Host.reduceAdd (mulf (Term.logSigmoid (diffArr o lab neg)) (maskArr lens))
          (constant (F := Ideal) S_ .f32 0x00000000#32) reducesTo_S64x200x200x1_S64_d1_2_3 h_S_ (ix1 b)))
      (denomArr lens (ix1 b)) = _
  rw [RefStages.reduce123, denomArr_apply]
  have hs : (∑ i : Fin 200, ∑ j : Fin 200, mulf (Term.logSigmoid (diffArr o lab neg)) (maskArr lens) (ix4 b i j 0))
      = ∑ i : Fin 200, ∑ j : Fin 200,
          Spec.pairTerm (fun i v => o (ix3 b i v)) (fun j => lab (ix2 b j)) (fun j => neg (ix3 b j 0)) (lens (ix1 b)) i j :=
    Finset.sum_congr rfl (fun i _ => Finset.sum_congr rfl (fun j _ => by
      rw [mulf_apply, RefStages.logSigmoid_apply, diffArr_apply o lab neg hl hn, maskArr_apply]
      rfl))
  rw [hs]
  rfl

end Cert.ReferenceIdeal.RefValue

end
-- ==== Proof.PreRange.lean ====
/-
  What the precondition says of the index arrays: every label word and every negative word is a position of a row —
  at least zero and below 20000 as a signed word, hence below 20000 as an unsigned one.
-/
import proofs.«408047_j78417512891010_1_alg».proof.Pre_finite_inputs
import proofs.«408047_j78417512891010_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

set_option maxRecDepth 16384

noncomputable section

open scoped BigOperators

namespace Cert.PreRange

open Idealize.ShloMosaic Idealize.ShloMosaic.ValueIdx Cert.Pre_finite_inputs
open Cert.Pre_finite_inputs.Facts

/-- A word that is at least zero and below 20000, both read signed, is below 20000 read unsigned. -/
private theorem toNat_lt (w : BitVec 32) (h0 : IntOp.cmpi .sge w (0#32) = 1#1)
    (h1 : IntOp.cmpi .slt w (20000#32) = 1#1) : w.toNat < 20000 := by
  rw [IntOp.cmpi_sge] at h0
  rw [IntOp.cmpi_slt] at h1
  have e0 : (0#32 : BitVec 32).toInt = 0 := by decide
  have e1 : (20000#32 : BitVec 32).toInt = 20000 := by decide
  rw [e0] at h0
  rw [e1] at h1
  have h32 := w.isLt
  by_cases hm : 2 * w.toNat < 2 ^ 32
  · rw [BitVec.toInt_eq_toNat_of_lt hm] at h1
    omega
  · exfalso
    have hneg : w.toInt < 0 := by
      unfold BitVec.toInt
      rw [if_neg hm]
      omega
    omega

/-- Under the precondition every index word is below 20000 as an unsigned word. -/
theorem ranges (o : FVec Ideal S64x200x20000 .f32) (lab : IVec S64x200 32) (lens : IVec S64 32) (uids : IVec S64x1 32)
    (neg : IVec S64x200x1 32) (h : Cert.Pre_finite_inputs.fn (F := Ideal) o lab lens uids neg = fun _ => 1#1) :
    (∀ (b : Fin 64) (j : Fin 200), (lab (ix2 b j)).toNat < 20000)
      ∧ (∀ (b : Fin 64) (j : Fin 200), (neg (ix3 b j 0)).toNat < 20000) := by
  haveI : Subsingleton S_.Idx := ⟨fun a b => funext fun d => d.elim0⟩
  have e := congrFun h ix0
  dsimp only [Cert.Pre_finite_inputs.fn, Cert.Pre_finite_inputs.fn_part1] at e
  obtain ⟨e12, e3⟩ := IntOp.andi_eq_one.1 (show IntOp.andi _ _ = 1#1 from e)
  obtain ⟨-, e2⟩ := IntOp.andi_eq_one.1 (show IntOp.andi _ _ = 1#1 from e12)
  refine ⟨fun b j => ?_, fun b j => ?_⟩
  · have q := Host.reduce_andi_all _ _ _ _ _ e2 (ix2 b j)
    obtain ⟨q0, q1⟩ := IntOp.andi_eq_one.1 (show IntOp.andi _ _ = 1#1 from q)
    have hb0 : broadcastInDim S64x200 ![] bcast_S_S64x200 (constantI S_ 32 0#32) (ix2 b j) = 0#32 :=
      StableHlo.Predicate.bcast_scalar _ h_S_ _ _
    have hb1 : broadcastInDim S64x200 ![] bcast_S_S64x200 (constantI S_ 32 20000#32) (ix2 b j) = 20000#32 :=
      StableHlo.Predicate.bcast_scalar _ h_S_ _ _
    have q0' : IntOp.cmpi .sge (lab (ix2 b j))
        (broadcastInDim S64x200 ![] bcast_S_S64x200 (constantI S_ 32 0#32) (ix2 b j)) = 1#1 := q0
    have q1' : IntOp.cmpi .slt (lab (ix2 b j))
        (broadcastInDim S64x200 ![] bcast_S_S64x200 (constantI S_ 32 20000#32) (ix2 b j)) = 1#1 := q1
    rw [hb0] at q0'
    rw [hb1] at q1'
    exact toNat_lt _ q0' q1'
  · have q := Host.reduce_andi_all _ _ _ _ _ e3 (ix3 b j 0)
    obtain ⟨q0, q1⟩ := IntOp.andi_eq_one.1 (show IntOp.andi _ _ = 1#1 from q)
    have hb0 : broadcastInDim S64x200x1 ![] bcast_S_S64x200x1 (constantI S_ 32 0#32) (ix3 b j 0) = 0#32 :=
      StableHlo.Predicate.bcast_scalar _ h_S_ _ _
    have hb1 : broadcastInDim S64x200x1 ![] bcast_S_S64x200x1 (constantI S_ 32 20000#32) (ix3 b j 0) = 20000#32 :=
      StableHlo.Predicate.bcast_scalar _ h_S_ _ _
    have q0' : IntOp.cmpi .sge (neg (ix3 b j 0))
        (broadcastInDim S64x200x1 ![] bcast_S_S64x200x1 (constantI S_ 32 0#32) (ix3 b j 0)) = 1#1 := q0
    have q1' : IntOp.cmpi .slt (neg (ix3 b j 0))
        (broadcastInDim S64x200x1 ![] bcast_S_S64x200x1 (constantI S_ 32 20000#32) (ix3 b j 0)) = 1#1 := q1
    rw [hb0] at q0'
    rw [hb1] at q1'
    exact toNat_lt _ q0' q1'

end Cert.PreRange

end
-- ==== Proof.lean ====
/-
  The certificate of the pairwise ranking loss kernel against its jnp reference, over the extended reals.

  Both programs compute, for each of 64 samples, minus the sum over the pairs (i, j) below the sample's length of
  `logσ (o[b, i, lab[b, j]] − o[b, i, neg[b, j, 0]])`, divided by the length squared, and add the 64 numbers
  (Proof/Spec.lean). The kernel selects the two entries of a row by multiplying the row, slab by slab, with the 0/1
  matrix of "position equals index word", which yields the entry at the word or nothing; the reference gathers them,
  which reads the same entry when the word is a position of the row — the precondition's range of the label and
  negative indices. The two frames of the kernel programs are the generated ones; the reference's frame is its run with
  the result dropped; no rewrite was made in idealizing the kernel, so nothing is to preserve.
-/
import proofs.«408047_j78417512891010_1_alg».proof.Defs
import proofs.«408047_j78417512891010_1_alg».proof.Proof.Gen.Kernel
import proofs.«408047_j78417512891010_1_alg».proof.Proof.Gen.Kernel.Skeleton
import proofs.«408047_j78417512891010_1_alg».proof.Proof.Gen.Kernel.Launch
import proofs.«408047_j78417512891010_1_alg».proof.Proof.Gen.Kernel.Points
import proofs.«408047_j78417512891010_1_alg».proof.Proof.Gen.Kernel.Frame
import proofs.«408047_j78417512891010_1_alg».proof.Proof.Gen.KernelIdeal
import proofs.«408047_j78417512891010_1_alg».proof.Proof.Gen.KernelIdeal.Skeleton
import proofs.«408047_j78417512891010_1_alg».proof.Proof.Gen.KernelIdeal.Launch
import proofs.«408047_j78417512891010_1_alg».proof.Proof.Gen.KernelIdeal.Points
import proofs.«408047_j78417512891010_1_alg».proof.Proof.Gen.KernelIdeal.Frame
import proofs.«408047_j78417512891010_1_alg».proof.Proof.Gen.ReferenceIdeal
import proofs.«408047_j78417512891010_1_alg».proof.Proof.Gen.Pre_finite_inputs
import proofs.«408047_j78417512891010_1_alg».proof.Proof.Spec
import proofs.«408047_j78417512891010_1_alg».proof.Proof.KernelRun
import proofs.«408047_j78417512891010_1_alg».proof.Proof.RefRun
import proofs.«408047_j78417512891010_1_alg».proof.Proof.RefValue
import proofs.«408047_j78417512891010_1_alg».proof.Proof.PreRange
import Idealize.ShloMosaic.Adequacy
import Idealize.ShloMosaic.Init

noncomputable section

namespace Cert.Proof

open Idealize.ShloMosaic Idealize.SL.Sem

/-- The reference runs and keeps its arguments: its run with the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- From memories agreeing on the arguments both idealized programs end at the specification's value of them: the
    kernel's run names it, and the reference's composed term is it because the precondition keeps every index word a
    position of its row. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := hagree c
  rw [h0, h1, h2, h4]
  have hr := Cert.PreRange.ranges _ _ _ _ _ (hpre c)
  exact Cert.ReferenceIdeal.RefValue.result_eq _ _ _ _ hr.1 hr.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
